-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x256 : Shape := ⟨2, ![4096, 256]⟩
abbrev S4096 : Shape := ⟨1, ![4096]⟩
abbrev S16384x4096 : Shape := ⟨2, ![16384, 4096]⟩
abbrev S256x512 : Shape := ⟨2, ![256, 512]⟩
abbrev S256 : Shape := ⟨1, ![256]⟩
abbrev S256x256 : Shape := ⟨2, ![256, 256]⟩
abbrev S_ : Shape := ⟨0, ![]⟩
abbrev S16384 : Shape := ⟨1, ![16384]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16384x4096 : S_.BroadcastsInDim S16384x4096 (![] : Fin 0 → Fin S16384x4096.rank)
  reducesTo_S16384x4096_S_d0_1 : S16384x4096.ReducesTo [0, 1] S_
  natLt_1_32 : 1 < 32
  reducesTo_S16384x4096_S16384_d1 : S16384x4096.ReducesTo [1] S16384
  bcast_S_S16384 : S_.BroadcastsInDim S16384 (![] : Fin 0 → Fin S16384.rank)
  reducesTo_S16384_S_d0 : S16384.ReducesTo [0] S_

variable [Facts]

def fn_part2 {F : FTy → Type} [FloatOps F] (main_arg3 : IVec S16384x4096 32) (main_v33 : IVec S_ 1) : IVec S_ 1 :=
  let main_c_12 : IVec S_ 32 := constantI S_ 32 0#32
  let main_v34 : IVec S16384x4096 32 := broadcastInDim S16384x4096 ![] bcast_S_S16384x4096 main_c_12
  let main_v35 : IVec S16384x4096 1 := cmpi .eq main_arg3 main_v34
  let main_c_13 : IVec S_ 32 := constantI S_ 32 1#32
  let main_v36 : IVec S16384x4096 32 := broadcastInDim S16384x4096 ![] bcast_S_S16384x4096 main_c_13
  let main_v37 : IVec S16384x4096 1 := cmpi .eq main_arg3 main_v36
  let main_v38 : IVec S16384x4096 1 := ori main_v35 main_v37
  let main_c_14 : IVec S_ 1 := constantI S_ 1 1#1
  let main_v39 : IVec S_ 1 := (fun x v => Host.reduce IntOp.andi x v reducesTo_S16384x4096_S_d0_1 h_S_) main_v38 main_c_14
  let main_v40 : IVec S_ 1 := andi main_v33 main_v39
  let main_c_15 : IVec S_ 32 := constantI S_ 32 0#32
  let main_v41 : IVec S16384x4096 32 := broadcastInDim S16384x4096 ![] bcast_S_S16384x4096 main_c_15
  let main_v42 : IVec S16384x4096 1 := cmpi .ne main_arg3 main_v41
  let main_v43 : IVec S16384x4096 32 := (extui 32 · natLt_1_32) main_v42
  let main_c_16 : IVec S_ 32 := constantI S_ 32 0#32
  let main_v44 : IVec S16384 32 := (fun x v => Host.reduce IntOp.addi x v reducesTo_S16384x4096_S16384_d1 h_S_) main_v43 main_c_16
  let main_c_17 : IVec S_ 32 := constantI S_ 32 1#32
  let main_v45 : IVec S16384 32 := broadcastInDim S16384 ![] bcast_S_S16384 main_c_17
  let main_v46 : IVec S16384 1 := cmpi .sge main_v44 main_v45
  let main_c_18 : IVec S_ 1 := constantI S_ 1 1#1
  let main_v47 : IVec S_ 1 := (fun x v => Host.reduce IntOp.andi x v reducesTo_S16384_S_d0 h_S_) main_v46 main_c_18
  let main_v48 : IVec S_ 1 := andi main_v40 main_v47
  main_v48

def fn_part1 {F : FTy → Type} [FloatOps F] (main_arg3 : IVec S16384x4096 32) (main_arg5 : FVec F S256 .f32) (main_arg6 : FVec F S256x256 .f32) (main_arg7 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_v33

def fn {F : FTy → Type} [FloatOps F] (main_arg0 : FVec F S16384x512 .f32) (main_arg1 : FVec F S4096x256 .f32) (main_arg2 : FVec F S4096 .f32) (main_arg3 : IVec S16384x4096 32) (main_arg4 : FVec F S256x512 .f32) (main_arg5 : FVec F S256 .f32) (main_arg6 : FVec F S256x256 .f32) (main_arg7 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg3 main_arg5 main_arg6 main_arg7 main_v13 main_v16
-- ==== Kernel.lean ====
abbrev S16384x512 : Shape := ⟨2, ![16384, 512]⟩
abbrev S4096x256 : Shape := ⟨2, ![4096, 256]⟩
abbrev S4096 : Shape := ⟨1, ![4096]⟩
abbrev S16384x4096 : Shape := ⟨2, ![16384, 4096]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S_ : Shape := ⟨0, ![]⟩
abbrev S1x256 : Shape := ⟨2, ![1, 256]⟩
abbrev S256x4096 : Shape := ⟨2, ![256, 4096]⟩
abbrev S4096x1 : Shape := ⟨2, ![4096, 1]⟩
abbrev S16384x256 : Shape := ⟨2, ![16384, 256]⟩
abbrev S256x1 : Shape := ⟨2, ![256, 1]⟩

abbrev nBuf : Space → Nat
  | .hbm => 29
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S4096x256, .f32⟩
  | .hbm, ⟨2, _⟩ => ⟨S4096, .f32⟩
  | .hbm, ⟨3, _⟩ => ⟨S16384x4096, .i32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .bf16⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S256x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S256x4096, .f32⟩
  | .hbm, ⟨23, _⟩ => ⟨S256x4096, .bf16⟩
  | .hbm, ⟨24, _⟩ => ⟨S4096x1, .f32⟩
  | .hbm, ⟨25, _⟩ => ⟨S4096x256, .f32⟩
  | .hbm, ⟨26, _⟩ => ⟨S4096x256, .f32⟩
  | .hbm, ⟨27, _⟩ => ⟨S4096x256, .bf16⟩
  | .hbm, ⟨28, _⟩ => ⟨S16384x256, .f32⟩
  | .local _ .vmem, ⟨0, _⟩ => ⟨S256x512, .f32⟩
  | .local _ .vmem, ⟨1, _⟩ => ⟨S256x512, .f32⟩
  | .local _ .vmem, ⟨2, _⟩ => ⟨S256x4096, .i32⟩
  | .local _ .vmem, ⟨3, _⟩ => ⟨S256x4096, .i32⟩
  | .local _ .vmem, ⟨4, _⟩ => ⟨S512x256, .bf16⟩
  | .local _ .vmem, ⟨5, _⟩ => ⟨S1x256, .f32⟩
  | .local _ .vmem, ⟨6, _⟩ => ⟨S256x4096, .bf16⟩
  | .local _ .vmem, ⟨7, _⟩ => ⟨S4096x256, .bf16⟩
  | .local _ .vmem, ⟨8, _⟩ => ⟨S256x256, .f32⟩
  | .local _ .vmem, ⟨9, _⟩ => ⟨S256x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x512_S512x256_1_0 : S256x512.Transposes [1, 0] S512x256
  bcast_S_S512x256 : S_.BroadcastsInDim S512x256 (![] : Fin 0 → Fin S512x256.rank)
  bitsLt_bf16_f32 : FTy.bits .bf16 < FTy.bits .f32
  bcast_S_S256 : S_.BroadcastsInDim S256 (![] : Fin 0 → Fin S256.rank)
  shapeCasts_S256_S1x256 : S256.ShapeCasts S1x256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S256x1_S256x256 : S256x1.Broadcasts S256x256
  inb_S256x256_S256x256_0_0 : ∀ a, (![0, 0] : Fin 2 → Nat) a + S256x256.size a ≤ S256x256.size a
  h_S256x256 : 0 < S256x256.numel
  dot_S4096x256_S256x256_S4096x256_1_0_0_1_n_n_wf : DotDims.WF S4096x256 S256x256 S4096x256 [1] [0] [0] [1] [] []
  dot_S256x512_S512x256_S256x256_1_0_0_1_n_n_wf : DotDims.WF S256x512 S512x256 S256x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S256x4096.size a
  hwx0_4 : ∀ i : grid0.Coords, EltTy.bits .bf16 = 32 ∨ (Rect.block (s := S256x4096) S256x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x256.size a
  hwx0_5 : ∀ i : grid0.Coords, EltTy.bits .bf16 = 32 ∨ (Rect.block (s := S4096x256) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S16384x256.size a
  hwx0_6 : ∀ i : grid0.Coords, EltTy.bits .f32 = 32 ∨ (Rect.block (s := S16384x256) S256x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x256 : Shape := ⟨2, ![4096, 256]⟩
abbrev S4096 : Shape := ⟨1, ![4096]⟩
abbrev S16384x4096 : Shape := ⟨2, ![16384, 4096]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S16384x256 : Shape := ⟨2, ![16384, 256]⟩
abbrev S1x256 : Shape := ⟨2, ![1, 256]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x256, .f32⟩
  | .hbm, ⟨2, _⟩ => ⟨S4096, .f32⟩
  | .hbm, ⟨3, _⟩ => ⟨S16384x4096, .i32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S256x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S256x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .i32⟩
  | .hbm, ⟨24, _⟩ => ⟨S16384x4096, .i32⟩
  | .hbm, ⟨25, _⟩ => ⟨S16384x4096, .i1⟩
  | .hbm, ⟨26, _⟩ => ⟨S_, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x256_S256x256_1_0 : S256x256.Transposes [1, 0] S256x256
  bcast_S1x256_S4096x256_0_1 : S1x256.BroadcastsInDim S4096x256 (![0, 1] : Fin 2 → Fin S4096x256.rank)
  transposes_S4096x256_S256x4096_1_0 : S4096x256.Transposes [1, 0] S256x4096
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S16384x512_S512x256_S16384x256_1_0_0_1_n_n_wf : DotDims.WF S16384x512 S512x256 S16384x256 [1] [0] [0] [1] [] []
  dot_S4096x256_S256x256_S4096x256_1_0_0_1_n_n_wf : DotDims.WF S4096x256 S256x256 S4096x256 [1] [0] [0] [1] [] []
  dot_S16384x256_S256x4096_S16384x4096_1_0_0_1_n_n_wf : DotDims.WF S16384x256 S256x4096 S16384x4096 [1] [0] [0] [1] [] []
  dot_S16384x4096_S4096x256_S16384x256_1_0_0_1_n_n_wf : DotDims.WF S16384x4096 S4096x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16384x256_S256x4096_S16384x4096_1_0_0_1_n_n : DotDims S16384x256 S256x4096 S16384x4096 where
  lhsContracting := [1]
  rhsContracting := [0]
  lhsNonContracting := [0]
  rhsNonContracting := [1]
  lhsBatch := []
  rhsBatch := []
  wf := dot_S16384x256_S256x4096_S16384x4096_1_0_0_1_n_n_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.LibSoftmaxLaw.lean ====
/-
  General lemmas, free of any program: the softmax with a mask, on the extended reals.

  Over a finite index type, with real scores `s`, real values `v` and a set of kept indices, `wavg s v keep` is the
  weighted average of the values over the kept indices with weights `exp (s k)`:
      (∑_{k kept} exp (s k) · v k) / (∑_{k kept} exp (s k)).
  Two ways of computing it on the extended reals, each equal to (the coercion of) `wavg` as soon as one index is kept,
  WHATEVER real shift is subtracted from the scores (the shift multiplies numerator and denominator by the same positive
  real):
  * `kernel_form`: weights `exp (s k - m) · μ k` with `μ` the 0/1 indicator of "kept", the weighted sum divided at the end
    by the sum of the weights;
  * `reference_form`: a dropped score is replaced by -∞ (its weight is `exp (-∞) = 0`), each weight is divided by the sum
    (started from 0) of the weights, and the normalised weights are summed against the values — how a softmax over scores
    masked with -∞, followed by a matrix product, reads entry by entry.
  The division is the one that sends `x / 0` to +∞ or -∞ (`Ideal.div`); it is never met at 0 here because the sum of the
  weights is a positive real. And the shift itself: the maximum of finitely many reals folded from -∞ is a real
  (`fold_max_coe`), also with the dropped indices at -∞ when one index is kept (`fold_max_masked`).
-/
import Idealize.ShloMosaic.PureOps.Ideal.Laws

noncomputable section

namespace SoftmaxLaw

open Idealize.ShloMosaic

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type} [Fintype ι]

/-- The weighted average of `v` over the kept indices, with weights `exp (s k)`. -/
def wavg (s v : ι → ℝ) (keep : ι → Prop) [DecidablePred keep] : ℝ :=
  (∑ k, if keep k then Real.exp (s k) * v k else 0) / (∑ k, if keep k then Real.exp (s k) else 0)

/-- The kept weights `exp (s k)` sum to a positive real as soon as one index is kept: every term is nonnegative and the kept
    one is positive. -/
theorem sum_kept_pos (s : ι → ℝ) (keep : ι → Prop) [DecidablePred keep] (h : ∃ k, keep k) :
    0 < ∑ k, (if keep k then Real.exp (s k) else 0) := by
  obtain ⟨k0, hk0⟩ := h
  refine Finset.sum_pos' (fun k _ => ?_) ⟨k0, Finset.mem_univ _, ?_⟩
  · by_cases hk : keep k
    · rw [if_pos hk]; exact (Real.exp_pos _).le
    · rw [if_neg hk]
  · rw [if_pos hk0]; exact Real.exp_pos _

/-- Shifting every score by the same real c multiplies numerator and denominator by `exp (-c)`, which cancels: the quotient of
    the shifted sums is the weighted average. -/
theorem wavg_shift (s v : ι → ℝ) (keep : ι → Prop) [DecidablePred keep] (c : ℝ) :
    (∑ k, (if keep k then Real.exp (s k - c) else 0) * v k) / (∑ k, (if keep k then Real.exp (s k - c) else 0))
      = wavg s v keep := by
  have hN : ∑ k, (if keep k then Real.exp (s k - c) else 0) * v k
      = Real.exp (-c) * ∑ k, (if keep k then Real.exp (s k) * v k else 0) := by
    rw [Finset.mul_sum]; refine Finset.sum_congr rfl fun k _ => ?_
    by_cases hk : keep k
    · rw [if_pos hk, if_pos hk, sub_eq_add_neg, Real.exp_add]; ring
    · rw [if_neg hk, if_neg hk]; ring
  have hD : ∑ k, (if keep k then Real.exp (s k - c) else 0)
      = Real.exp (-c) * ∑ k, (if keep k then Real.exp (s k) else 0) := by
    rw [Finset.mul_sum]; refine Finset.sum_congr rfl fun k _ => ?_
    by_cases hk : keep k
    · rw [if_pos hk, if_pos hk, sub_eq_add_neg, Real.exp_add]; ring
    · rw [if_neg hk, if_neg hk]; ring
  rw [hN, hD, wavg, mul_div_mul_left _ _ (Real.exp_pos _).ne']

/-- The maximum of a nonempty finite family of reals, folded from -∞ on the extended reals, is a real. -/
theorem fold_max_coe [Nonempty ι] (s : ι → ℝ) :
    ∃ m : ℝ, Finset.univ.fold max (⊥ : EReal) (fun k => (s k : EReal)) = (m : EReal) := by
  -- the fold is below +∞ because the start and every term are, and above -∞ because one term is
  have hlt : Finset.univ.fold max (⊥ : EReal) (fun k => (s k : EReal)) < ⊤ :=
    (Finset.fold_max_lt _).mpr ⟨bot_lt_top, fun x _ => EReal.coe_lt_top _⟩
  have hgt : ⊥ < Finset.univ.fold max (⊥ : EReal) (fun k => (s k : EReal)) := by
    obtain ⟨k⟩ := ‹Nonempty ι›
    exact (Finset.lt_fold_max _).mpr (Or.inr ⟨k, Finset.mem_univ k, EReal.bot_lt_coe _⟩)
  exact ⟨_, (EReal.coe_toReal hlt.ne hgt.ne').symm⟩

/-- The same with the dropped indices at -∞, when one index is kept. -/
theorem fold_max_masked (s : ι → ℝ) (keep : ι → Prop) [DecidablePred keep] (h : ∃ k, keep k) :
    ∃ M : ℝ, max (⊥ : EReal) (Finset.univ.fold max (⊥ : EReal) (fun k => if keep k then (s k : EReal) else ⊥)) = (M : EReal) := by
  rw [max_eq_right bot_le]
  -- every term is a real or -∞, so the fold is below +∞; the kept term is a real, so the fold is above -∞
  have hlt : Finset.univ.fold max (⊥ : EReal) (fun k => if keep k then (s k : EReal) else ⊥) < ⊤ := by
    refine (Finset.fold_max_lt _).mpr ⟨bot_lt_top, fun x _ => ?_⟩
    by_cases hx : keep x
    · rw [if_pos hx]; exact EReal.coe_lt_top _
    · rw [if_neg hx]; exact bot_lt_top
  have hgt : ⊥ < Finset.univ.fold max (⊥ : EReal) (fun k => if keep k then (s k : EReal) else ⊥) := by
    obtain ⟨k, hk⟩ := h
    refine (Finset.lt_fold_max _).mpr (Or.inr ⟨k, Finset.mem_univ k, ?_⟩)
    rw [if_pos hk]; exact EReal.bot_lt_coe _
  exact ⟨_, (EReal.coe_toReal hlt.ne hgt.ne').symm⟩

/-- The kernel's form: weights `exp (s k - m) · μ k` with μ the 0/1 mask, the weighted sum divided by the sum of the weights. -/
theorem kernel_form (s v : ι → ℝ) (keep : ι → Prop) [DecidablePred keep] (h : ∃ k, keep k) (m : ℝ) (μ : ι → EReal)
    (hμ : ∀ k, μ k = if keep k then 1 else 0) :
    Ideal.div (∑ k, (Ideal.exp ((s k : EReal) - (m : EReal)) * μ k) * (v k : EReal))
        (∑ k, Ideal.exp ((s k : EReal) - (m : EReal)) * μ k)
      = ((wavg s v keep : ℝ) : EReal) := by
  -- each masked weight is the real `exp (s k - m)` at a kept index and 0 at a dropped one
  have hw : ∀ k, Ideal.exp ((s k : EReal) - (m : EReal)) * μ k
      = (((if keep k then Real.exp (s k - m) else 0 : ℝ)) : EReal) := by
    intro k
    rw [hμ k, ← EReal.coe_sub, Ideal.exp_coe]
    by_cases hk : keep k
    · rw [if_pos hk, if_pos hk, mul_one]
    · rw [if_neg hk, if_neg hk, mul_zero, EReal.coe_zero]
  -- so both sums are real sums, and the sum of the weights is positive
  have hpos : 0 < ∑ k, (if keep k then Real.exp (s k - m) else 0) := sum_kept_pos (fun k => s k - m) keep h
  have hnum : ∑ k, (Ideal.exp ((s k : EReal) - (m : EReal)) * μ k) * (v k : EReal)
      = ((∑ k, (if keep k then Real.exp (s k - m) else 0) * v k : ℝ) : EReal) := by
    rw [coe_sum]; refine Finset.sum_congr rfl fun k _ => ?_
    rw [hw k, EReal.coe_mul]
  have hden : ∑ k, Ideal.exp ((s k : EReal) - (m : EReal)) * μ k
      = ((∑ k, (if keep k then Real.exp (s k - m) else 0) : ℝ) : EReal) := by
    rw [coe_sum]; exact Finset.sum_congr rfl fun k _ => hw k
  -- dividing by a nonzero real is multiplying by its reciprocal; the shift cancels in the quotient
  rw [hnum, hden, Ideal.div_coe hpos.ne', ← EReal.coe_mul, mul_one_div, wavg_shift s v keep m]

/-- The reference's form: a dropped score is -∞, each weight `exp (s' k - M)` is divided by the sum (from 0) of the weights, and
    the normalised weights are summed against the values. -/
theorem reference_form (s v : ι → ℝ) (keep : ι → Prop) [DecidablePred keep] (h : ∃ k, keep k) (M : ℝ) :
    ∑ k, Ideal.div (Ideal.exp ((if keep k then (s k : EReal) else ⊥) - (M : EReal)))
          ((0 : EReal) + ∑ k', Ideal.exp ((if keep k' then (s k' : EReal) else ⊥) - (M : EReal))) * (v k : EReal)
      = ((wavg s v keep : ℝ) : EReal) := by
  -- a kept weight is the real `exp (s k - M)`; a dropped one is `exp (-∞) = 0`
  have hw : ∀ k, Ideal.exp ((if keep k then (s k : EReal) else ⊥) - (M : EReal))
      = (((if keep k then Real.exp (s k - M) else 0 : ℝ)) : EReal) := by
    intro k
    by_cases hk : keep k
    · rw [if_pos hk, if_pos hk, ← EReal.coe_sub, Ideal.exp_coe]
    · rw [if_neg hk, if_neg hk, EReal.bot_sub, Ideal.exp_bot, EReal.coe_zero]
  have hpos : 0 < ∑ k, (if keep k then Real.exp (s k - M) else 0) := sum_kept_pos (fun k => s k - M) keep h
  have hden : (0 : EReal) + ∑ k', Ideal.exp ((if keep k' then (s k' : EReal) else ⊥) - (M : EReal))
      = ((∑ k, (if keep k then Real.exp (s k - M) else 0) : ℝ) : EReal) := by
    rw [zero_add, coe_sum]; exact Finset.sum_congr rfl fun k _ => hw k
  -- each normalised term is a real; the common divisor comes out of the sum
  rw [← wavg_shift s v keep M, Finset.sum_div, coe_sum]
  refine Finset.sum_congr rfl fun k _ => ?_
  rw [hden, hw k, Ideal.div_coe hpos.ne', ← EReal.coe_mul, ← EReal.coe_mul]
  congr 1; ring

end SoftmaxLaw

end
-- ==== Proof.Spec.lean ====
/-
  The specification both programs are compared with, over the real numbers.

  Row r of the result is a softmax-weighted average of the rows of the value matrix: with
    Q(r, d) = ∑ₐ g(r, a) · Wq(d, a) + bq(d),     K(k, d) = ∑_b e(k, b) · Wk(d, b) + bk(d),
    score(r, k) = (∑_d Q(r, d) · K(k, d)) / 16,   value(k, j) = w(k) · e(k, j),
  the entry (r, j) is
    (∑_{k kept in row r} exp(score(r, k)) · value(k, j)) / (∑_{k kept in row r} exp(score(r, k))),
  where k is kept in row r when the mask entry (r, k) is not zero. The argument arrays hold extended reals; the
  specification reads each entry's real part, which is the entry itself when the entry is finite.
-/
import proofs.«418450_j89223650607749_2_alg».proof.Proof.LibSoftmaxLaw
import Idealize.ShloMosaic.PureOps.Ideal.Laws
import Idealize.ShloMosaic.Lib.ValueIdx
import Idealize.ShloMosaic.Lib.ValueIdxRank1

noncomputable section

namespace AdjAtten

open Idealize.ShloMosaic Idealize.ShloMosaic.ValueIdx

-- the weighted average over the kept indices with weights `exp (s k)`, under this namespace's name too
export SoftmaxLaw (wavg)

/-- A rank-2 array of extended reals. -/
abbrev A2 (n0 n1 : Nat) : Type := (⟨2, ![n0, n1]⟩ : Shape).Idx → EReal
/-- A rank-1 array of extended reals. -/
abbrev A1 (n : Nat) : Type := (⟨1, ![n]⟩ : Shape).Idx → EReal
/-- The mask: a rank-2 array of 32-bit words. -/
abbrev M2 (n0 n1 : Nat) : Type := (⟨2, ![n0, n1]⟩ : Shape).Idx → BitVec 32

/-- Every entry is a real number. -/
def Finite {s : Shape} (x : s.Idx → EReal) : Prop := ∀ i, x i = ((x i).toReal : EReal)
/-- Every mask entry is 0 or 1. -/
def Mask01 {n0 n1 : Nat} (mask : M2 n0 n1) : Prop := ∀ i, mask i = 0#32 ∨ mask i = 1#32
/-- Every row of the mask keeps at least one column. -/
def RowKept {n0 n1 : Nat} (mask : M2 n0 n1) : Prop := ∀ r : Fin n0, ∃ k : Fin n1, mask (ix2 r k) ≠ 0#32

section
variable (ge : A2 16384 512) (se : A2 4096 256) (sw : A1 4096) (mask : M2 16384 4096)
  (Wq : A2 256 512) (bq : A1 256) (Wk : A2 256 256) (bk : A1 256)

/-- The query projection Q(r, d). -/
def qproj (r : Fin 16384) (d : Fin 256) : ℝ :=
  (∑ a : Fin 512, (ge (ix2 r a)).toReal * (Wq (ix2 d a)).toReal) + (bq (ix1 d)).toReal
/-- The key projection K(k, d). -/
def kproj (k : Fin 4096) (d : Fin 256) : ℝ :=
  (∑ b : Fin 256, (se (ix2 k b)).toReal * (Wk (ix2 d b)).toReal) + (bk (ix1 d)).toReal
/-- The scaled score of query r against key k. -/
def score (r : Fin 16384) (k : Fin 4096) : ℝ := (∑ d : Fin 256, qproj ge Wq bq r d * kproj se Wk bk k d) / 16
/-- The value matrix: row k of the embeddings scaled by its weight. -/
def value (k : Fin 4096) (j : Fin 256) : ℝ := (sw (ix1 k)).toReal * (se (ix2 k j)).toReal
/-- Column k is kept in row r. -/
def kept (r : Fin 16384) (k : Fin 4096) : Prop := mask (ix2 r k) ≠ 0#32
instance (r : Fin 16384) : DecidablePred (kept mask r) := fun _ => inferInstanceAs (Decidable (_ ≠ _))

/-- The entry (r, j) of the result: the softmax-weighted average of column j of the value matrix over the columns kept in row r. -/
def resultAt (r : Fin 16384) (j : Fin 256) : ℝ :=
  wavg (score ge se Wq bq Wk bk r) (fun k => value se sw k j) (kept mask r)

/-- The result array. -/
def result : A2 16384 256 := fun i => ((resultAt ge se sw mask Wq bq Wk bk (i 0) (i 1) : ℝ) : EReal)

end

/-! ## The kernel's arithmetic for one row, on the extended reals

One row of queries `q` against the resident matrices: the pre-scaled projection, the scores against every key, the
scores' maximum over ALL keys, the weights `exp (score - maximum)` times the mask word read as a number, and the
weighted sum of column j of the value matrix divided by the sum of the weights. -/

/-- The score of the row against key k: `∑_d ((∑ₐ q(a) · WqT(a, d)) + b(d)) · KT(d, k)`. -/
def kScore (q : Fin 512 → EReal) (WqT : Fin 512 → Fin 256 → EReal) (b : Fin 256 → EReal) (KT : Fin 256 → Fin 4096 → EReal)
    (k : Fin 4096) : EReal :=
  ∑ d : Fin 256, ((∑ a : Fin 512, q a * WqT a d) + b d) * KT d k

/-- The unnormalised weight of key k: `exp (score k - max over all keys) · mask k`. -/
def kWeight (q : Fin 512 → EReal) (μ : Fin 4096 → BitVec 32) (WqT : Fin 512 → Fin 256 → EReal) (b : Fin 256 → EReal)
    (KT : Fin 256 → Fin 4096 → EReal) (k : Fin 4096) : EReal :=
  Ideal.exp (kScore q WqT b KT k - Finset.univ.fold max (⊥ : EReal) (kScore q WqT b KT)) * (((μ k).toInt : ℝ) : EReal)

/-- The row's entry in column j: the weighted sum of column j of the value matrix over the sum of the weights. -/
def kernelEntry (q : Fin 512 → EReal) (μ : Fin 4096 → BitVec 32) (WqT : Fin 512 → Fin 256 → EReal) (b : Fin 256 → EReal)
    (KT : Fin 256 → Fin 4096 → EReal) (Vm : Fin 4096 → Fin 256 → EReal) (j : Fin 256) : EReal :=
  Ideal.div (∑ k : Fin 4096, kWeight q μ WqT b KT k * Vm k j) (∑ k : Fin 4096, kWeight q μ WqT b KT k)

end AdjAtten

end
-- ==== Proof.PreDecode.lean ====
/-
  The precondition read back. The precondition is a conjunction of nine one-bit facts about the argument arrays:
  for each of the seven arrays of extended reals, "max x (-x) < +∞ at every entry"; for the mask, "every entry is 0
  or 1" and "every row has at least one nonzero entry", the last stated as: the number of nonzero entries of the row,
  counted as a 32-bit sum of widened bits, is at least 1 as a signed word. When the conjunction is 1, each array's
  entries are real numbers (an extended real whose absolute value is below +∞ is neither infinity, so it equals its
  real part), every mask entry is 0 or 1, and every row of the mask has a column whose entry is not 0 (the row's count
  is the number of such columns, at most 4096, so the signed comparison is the comparison of natural numbers, and a
  positive count names a column).
-/
import proofs.«418450_j89223650607749_2_alg».proof.Pre_finite_inputs
import proofs.«418450_j89223650607749_2_alg».proof.Proof.Spec
import Idealize.ShloMosaic.Lib.ReduceAll
import Idealize.ShloMosaic.Lib.StableHlo.Predicate

namespace AdjAtten.Pre

open Idealize.ShloMosaic Cert.Pre_finite_inputs AdjAtten

/-! ## One entry: an absolute value below +∞ is a real number -/

/-- The 32-bit pattern with all exponent bits set and no fraction bit denotes +∞. -/
theorem inf_word : Ideal.ofBits .f32 0x7F800000#32 = (⊤ : EReal) := by simp [Ideal.ofBits, Ideal.ieee]

/-- If the comparison `max x (-x) < +∞` holds at an extended real `x`, then `x` is its own real part: neither
    infinity passes, since the larger of `x` and `-x` is then +∞. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  rw [Ideal.ofBits_def, inf_word, Ideal.hostAbsf_def, Ideal.cmpf_def, Ideal.absf_def] at h
  simp only [Ideal.cmp, StableHlo.Predicate.ofBool_eq_one_iff, decide_eq_true_eq] at h
  induction x using EReal.rec with
  | bot => simp at h
  | top => simp at h
  | coe r => rfl

/-! ## One array: the conjunction over all its entries -/

/-- The scalar shape has a single index. -/
instance : Subsingleton S_.Idx := ⟨fun a b => funext fun d => d.elim0⟩

/-- A conjunction of two one-bit scalars that is 1 has both conjuncts 1. -/
theorem both_of_andi {s : Shape} (a b : IVec s 1) (i : s.Idx) (h : andi a b i = 1#1) : a i = 1#1 ∧ b i = 1#1 :=
  IntOp.andi_eq_one.1 h

/-- If "|x| < +∞ at every entry", folded by `and` over all axes, is 1, then every entry of `x` is a real number. -/
theorem finite_of_all {s : Shape} {axes : List (Fin s.rank)} (x : FVec Ideal s .f32)
    (hb : S_.BroadcastsInDim s (![] : Fin 0 → Fin s.rank)) (hr : s.ReducesTo axes S_) (h0 : 0 < S_.numel) (j : S_.Idx)
    (h : Host.reduce IntOp.andi
        (cmpf .olt (Host.absf x) (broadcastInDim s ![] hb (constant (F := Ideal) S_ .f32 0x7F800000#32)))
        (constantI S_ 1 1#1) hr h0 j = 1#1) :
    Finite (s := s) x := by
  intro i
  have e := Host.reduce_andi_all _ _ hr h0 j h i
  exact real_of_abs_lt (x i) e

/-! ## The mask -/

/-- If "the entry is 0 or the entry is 1", folded by `and` over both axes, is 1, then every mask entry is 0 or 1. -/
theorem mask01_of_all (m : IVec S16384x4096 32) (hb : S_.BroadcastsInDim S16384x4096 (![] : Fin 0 → Fin S16384x4096.rank))
    (hr : S16384x4096.ReducesTo [0, 1] S_) (h0 : 0 < S_.numel) (j : S_.Idx)
    (h : Host.reduce IntOp.andi
        (ori (cmpi .eq m (broadcastInDim S16384x4096 ![] hb (constantI S_ 32 0#32)))
          (cmpi .eq m (broadcastInDim S16384x4096 ![] hb (constantI S_ 32 1#32))))
        (constantI S_ 1 1#1) hr h0 j = 1#1) :
    Mask01 (n0 := 16384) (n1 := 4096) m := by
  intro i
  have e := Host.reduce_andi_all _ _ hr h0 j h i
  rcases IntOp.ori_eq_one.1 e with e | e
  · exact Or.inl (IntOp.cmpi_eq.1 e)
  · exact Or.inr (IntOp.cmpi_eq.1 e)

/-- The two spellings of the index (row p, column q) agree. -/
theorem ij_eq_ix2 {n m : Nat} (p : Fin n) (q : Fin m) : StableHlo.Predicate.ij p q = ValueIdx.ix2 p q := by
  funext b; match b with | ⟨0, _⟩ => rfl | ⟨1, _⟩ => rfl

/-- If "the number of nonzero entries of the row is at least 1", folded by `and` over the rows, is 1, then every row has a
    nonzero entry: the row's count is the number of its columns whose entry is nonzero, at most 4096, so the signed
    comparison with 1 is the comparison of the values, and a positive count names a column. -/
theorem rowKept_of_all (m : IVec S16384x4096 32) (hb : S_.BroadcastsInDim S16384x4096 (![] : Fin 0 → Fin S16384x4096.rank))
    (hw : 1 < 32) (hr1 : S16384x4096.ReducesTo [1] S16384) (h0 : 0 < S_.numel)
    (hb1 : S_.BroadcastsInDim S16384 (![] : Fin 0 → Fin S16384.rank)) (hr : S16384.ReducesTo [0] S_) (j : S_.Idx)
    (h : Host.reduce IntOp.andi
        (cmpi .sge
          (Host.reduce IntOp.addi (extui 32 (cmpi .ne m (broadcastInDim S16384x4096 ![] hb (constantI S_ 32 0#32))) hw)
            (constantI S_ 32 0#32) hr1 h0)
          (broadcastInDim S16384 ![] hb1 (constantI S_ 32 1#32)))
        (constantI S_ 1 1#1) hr h0 j = 1#1) :
    RowKept (n0 := 16384) (n1 := 4096) m := by
  intro r
  have e := Host.reduce_andi_all _ _ hr h0 j h (ValueIdx.ix1 r)
  have hcount := StableHlo.Predicate.toNat_reduce_count_cols (n := 16384) (m := 4096) (by norm_num)
    (cmpi .ne m (broadcastInDim S16384x4096 ![] hb (constantI S_ 32 0#32))) hw hr1 h0 (ValueIdx.ix1 r)
  have hle : (Finset.univ.filter (fun q : Fin 4096 =>
      cmpi .ne m (broadcastInDim S16384x4096 ![] hb (constantI S_ 32 0#32)) (StableHlo.Predicate.ij (ValueIdx.ix1 r 0) q) = 1#1)).card ≤ 4096 :=
    (Finset.card_le_univ _).trans (by simp)
  have hpos := (StableHlo.Predicate.sge_iff_toNat (by rw [hcount]; omega)
    (show (1#32 : BitVec 32).toNat < 2 ^ 31 by decide)).1 e
  rw [hcount] at hpos
  obtain ⟨k, hk⟩ := Finset.card_pos.1 hpos
  have hk' := (Finset.mem_filter.1 hk).2
  refine ⟨k, ?_⟩
  have hne := IntOp.cmpi_ne.1 hk'
  rw [ij_eq_ix2] at hne
  exact hne

/-! ## The precondition, decoded -/

theorem decode [Cert.Pre_finite_inputs.Facts] (x0 : FVec Ideal S16384x512 .f32) (x1 : FVec Ideal S4096x256 .f32)
    (x2 : FVec Ideal S4096 .f32) (x3 : IVec S16384x4096 32) (x4 : FVec Ideal S256x512 .f32) (x5 : FVec Ideal S256 .f32)
    (x6 : FVec Ideal S256x256 .f32) (x7 : FVec Ideal S256 .f32)
    (h : Cert.Pre_finite_inputs.fn (F := Ideal) x0 x1 x2 x3 x4 x5 x6 x7 = fun _ => 1#1) :
    Finite x0 ∧ Finite x1 ∧ Finite x2 ∧ Finite x4 ∧ Finite x5 ∧ Finite x6 ∧ Finite x7 ∧ Mask01 x3 ∧ RowKept x3 := by
  have e := congrFun h ValueIdx.ix0
  dsimp only [fn, fn_part1, fn_part2] at e
  obtain ⟨e, hrow⟩ := both_of_andi _ _ _ e
  obtain ⟨e, hmask⟩ := both_of_andi _ _ _ e
  obtain ⟨e, h7⟩ := both_of_andi _ _ _ e
  obtain ⟨e, h6⟩ := both_of_andi _ _ _ e
  obtain ⟨e, h5⟩ := both_of_andi _ _ _ e
  obtain ⟨e, h4⟩ := both_of_andi _ _ _ e
  obtain ⟨e, h2⟩ := both_of_andi _ _ _ e
  obtain ⟨h0, h1⟩ := both_of_andi _ _ _ e
  exact ⟨finite_of_all x0 _ _ _ _ h0, finite_of_all x1 _ _ _ _ h1, finite_of_all x2 _ _ _ _ h2, finite_of_all x4 _ _ _ _ h4,
    finite_of_all x5 _ _ _ _ h5, finite_of_all x6 _ _ _ _ h6, finite_of_all x7 _ _ _ _ h7,
    mask01_of_all x3 _ _ _ _ hmask, rowKept_of_all x3 _ _ _ _ _ _ _ hrow⟩

end AdjAtten.Pre
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KerPayload.lean ====
/-
  The kernel body's one stored value, read at an entry.

  The body loads a block of 256 query rows x0, the block's mask rows x18, and the resident matrices: the projection
  matrix x2, the bias row x5, the key matrix x10 (one column per key) and the value matrix x24. What it stores is, in
  order: the projected queries Q = x0 · x2 + bias; the scores S = Q · x10; the weights W(p, k) = exp (S(p, k) − the
  maximum of row p of S over ALL keys) · (the mask word at (p, k) read as a number); and the quotient of the row of
  W · x24 by the sum of the row of W. Here each stage is named, read at an entry as a sum, a fold of max or a quotient
  over one coordinate, and the composition at (p, j) is the one-row arithmetic kernelEntry of the specification, applied to
  row p of x0 and of x18.

  At the extended reals a change of float format is the identity and a product into the zero accumulator is the plain
  sum of products, so nothing but the reading of each operation at an index is involved: no finiteness is assumed.
-/
import proofs.«418450_j89223650607749_2_alg».proof.Proof.Gen.KernelIdeal.Skeleton
import proofs.«418450_j89223650607749_2_alg».proof.Proof.Spec
import proofs.«418450_j89223650607749_2_alg».proof.Proof.LibPlainMatmul
import Idealize.ShloMosaic.PureOps.Ideal.Laws
import Idealize.ShloMosaic.Lib.ValueIdx
import Idealize.ShloMosaic.Lib.Pipeline.Value
import Idealize.ShloMosaic.Lib.ValueLayout

noncomputable section

namespace AdjAtten.Ker

open Cert.KernelIdeal Cert.KernelIdeal.Gen Idealize.ShloMosaic Idealize.ShloMosaic.ValueIdx AdjAtten

/-- The bias row spread down the rows: entry (p, d) of the spread is entry (0, d) of the row. -/
theorem bias_bcast {α : Type} (v : S1x256.Idx → α) (h : S1x256.Broadcasts S256x256) (p d : Fin 256) :
    broadcastTo S256x256 v h (ix2 p d) = v (ix2 0 d) := by
  refine broadcastTo_apply v h (ix2 p d) (ix2 0 d) fun a => ?_
  match a with
  | ⟨0, _⟩ => rfl
  | ⟨1, _⟩ => rfl

/-- A per-row quantity kept as a one-column matrix and spread across n columns: entry (p, c) is the quantity of row p. -/
theorem col_bcast {α : Type} {n : Nat} (v : S256.Idx → α) (h1 : S256.ShapeCasts S256x1)
    (h2 : S256x1.Broadcasts ⟨2, ![256, n]⟩) (p : Fin 256) (c : Fin n) :
    broadcastTo ⟨2, ![256, n]⟩ (shapeCast S256x1 v h1) h2 (ix2 p c) = v (ix1 p) := by
  refine (broadcastTo_apply _ h2 (ix2 p c) (ix2 p 0) fun a => ?_).trans ?_
  · match a with
    | ⟨0, _⟩ => rfl
    | ⟨1, _⟩ => rfl
  · refine shapeCast_apply v h1 (ix2 p 0) (ix1 p) ?_
    rw [Shape.rowMajor_val_one, Shape.rowMajor_val_two]
    show p.val = p.val * 1 + 0
    omega

/-- Row p with the column coordinate k put back is the entry (p, k). -/
theorem lift_row (h : S256x4096.Reduces [1] S256) (p : Fin 256) (k : Fin 4096) : h.lift (ix1 p) k = ix2 p k := by
  funext c
  refine Fin.ext ?_
  match c with
  | ⟨0, _⟩ => rfl
  | ⟨1, _⟩ => rfl

/-- The maximum over the columns, started from the word of minus infinity, at row p: the fold of max from ⊥ over row p. -/
theorem row_max (v : FVec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 v 0xFF800000#32 h hφ hacc (ix1 p)
      = (Finset.univ : Finset (Fin 4096)).fold max (⊥ : EReal) (fun k => v (ix2 p k)) := by
  refine (Ideal.multiReduction_maximumf_single v _ h hφ hacc (ix1 p)).trans ?_
  have hb : FloatOps.ofBits (F := Ideal) .f32 0xFF800000#32 = (⊥ : EReal) := by
    simp [Ideal.ofBits, Ideal.ieee]
  rw [hb]
  refine congrArg (Finset.fold max (⊥ : EReal) · (Finset.univ : Finset (Fin 4096))) ?_
  funext k
  exact congrArg v (lift_row h p k)

/-- The sum over the columns at row p. -/
theorem row_sum (v : FVec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 v 0x00000000#32 h hφ hacc (ix1 p) = ∑ k : Fin 4096, v (ix2 p k) := by
  refine (Ideal.multiReduction_add_single v _ h hφ hacc (ix1 p)).trans ?_
  refine Finset.sum_congr rfl fun k _ => ?_
  exact congrArg v (lift_row h p k)

/-- The projected queries of the block: the product of the query rows with the projection matrix, plus the bias row spread down the rows. -/
def qv (x0 : FVec Ideal S256x512 .f32) (x2 : FVec Ideal S512x256 .bf16) (x5 : FVec Ideal S1x256 .f32) : FVec Ideal S256x256 .f32 :=
  addf (matmul dot_S256x512_S512x256_S256x256_1_0_0_1_n_n none (truncf .bf16 x0 bitsLt_bf16_f32)
      (shapeCast S512x256 x2 shapeCasts_S512x256_S512x256) (constant S256x256 .f32 0x00000000#32))
    (broadcastTo S256x256 (shapeCast S1x256 x5 shapeCasts_S1x256_S1x256) broadcasts_S1x256_S256x256)

/-- The scores of the block's rows against every key. -/
def sv (q : FVec Ideal S256x256 .f32) (x10 : FVec Ideal S256x4096 .bf16) : FVec Ideal S256x4096 .f32 :=
  matmul dot_S256x256_S256x4096_S256x4096_1_0_0_1_n_n none (truncf .bf16 q bitsLt_bf16_f32)
    (shapeCast S256x4096 x10 shapeCasts_S256x4096_S256x4096) (constant S256x4096 .f32 0x00000000#32)

/-- The unnormalised weights: the exponential of each score less its row's maximum, times the mask word read as a number. -/
def wv (s : FVec Ideal S256x4096 .f32) (x18 : IVec S256x4096 32) : FVec Ideal S256x4096 .f32 :=
  mulf (exp (subf s (broadcastTo S256x4096
      (shapeCast S256x1 (multiReduction .maximumf [1] S256 s 0xFF800000#32 reduces_S256x4096_S256 (.inl rfl) rfl) shapeCasts_S256_S256x1)
      broadcasts_S256x1_S256x4096)))
    (sitofp .f32 x18)

/-- The stored block: the weights times the value matrix, each row divided by the sum of its weights. -/
def ov (w : FVec Ideal S256x4096 .f32) (x24 : FVec Ideal S4096x256 .bf16) : FVec Ideal S256x256 .f32 :=
  divf (matmul dot_S256x4096_S4096x256_S256x256_1_0_0_1_n_n none (truncf .bf16 w bitsLt_bf16_f32)
      (shapeCast S4096x256 x24 shapeCasts_S4096x256_S4096x256) (constant S256x256 .f32 0x00000000#32))
    (broadcastTo S256x256
      (shapeCast S256x1 (multiReduction .add [1] S256 w 0x00000000#32 reduces_S256x4096_S256 (.inl rfl) rfl) shapeCasts_S256_S256x1)
      broadcasts_S256x1_S256x256)

/-- The stored value is the composition of the four stages. -/
theorem pay_eq (x0 : Vec Ideal S256x512 .f32) (x2 : Vec Ideal S512x256 .bf16) (x5 : Vec Ideal S1x256 .f32)
    (x10 : Vec Ideal S256x4096 .bf16) (x18 : Vec Ideal S256x4096 .i32) (x24 : Vec Ideal S4096x256 .bf16) :
    k0_pay1 (F := Ideal) x0 x2 x5 x10 x18 x24 = ov (wv (sv (qv x0 x2 x5) x10) x18) x24 := rfl

/-- A projected query entry: the row of queries against column d of the projection matrix, plus the bias. -/
theorem qv_apply (x0 : FVec Ideal S256x512 .f32) (x2 : FVec Ideal S512x256 .bf16) (x5 : FVec Ideal S1x256 .f32) (p d : Fin 256) :
    qv x0 x2 x5 (ix2 p d) = (∑ a : Fin 512, x0 (ix2 p a) * x2 (ix2 a d)) + x5 (ix2 0 d) := by
  unfold qv
  rw [shapeCast_self, shapeCast_self]
  refine (addf_apply _ _ _).trans ?_
  refine congrArg₂ (· + ·) ?_ ?_
  · exact PlainMatmul.matmul_zero_apply_of_eq _ rfl none _ _ p d
  · exact bias_bcast x5 _ p d

/-- A score: the projected row against column k of the key matrix. -/
theorem sv_apply (q : FVec Ideal S256x256 .f32) (x10 : FVec Ideal S256x4096 .bf16) (p : Fin 256) (k : Fin 4096) :
    sv q x10 (ix2 p k) = ∑ d : Fin 256, q (ix2 p d) * x10 (ix2 d k) := by
  unfold sv
  rw [shapeCast_self]
  exact PlainMatmul.matmul_zero_apply_of_eq _ rfl none _ _ p k

/-- A weight: the exponential of the score less the row's maximum over all keys, times the mask word as a number. -/
theorem wv_apply (s : FVec Ideal S256x4096 .f32) (x18 : IVec S256x4096 32) (p : Fin 256) (k : Fin 4096) :
    wv s x18 (ix2 p k)
      = Ideal.exp (s (ix2 p k) - (Finset.univ : Finset (Fin 4096)).fold max (⊥ : EReal) (fun k' => s (ix2 p k')))
        * (((x18 (ix2 p k)).toInt : ℝ) : EReal) := by
  unfold wv
  refine (mulf_apply _ _ _).trans ?_
  refine congrArg₂ (· * ·) ?_ rfl
  show Ideal.exp (s (ix2 p k) - _) = _
  refine congrArg (fun m => Ideal.exp (s (ix2 p k) - m)) ?_
  refine (col_bcast _ _ _ p k).trans ?_
  exact row_max s _ _ _ p

/-- A stored entry: the row of weights against column j of the value matrix, over the sum of the row's weights. -/
theorem ov_apply (w : FVec Ideal S256x4096 .f32) (x24 : FVec Ideal S4096x256 .bf16) (p j : Fin 256) :
    ov w x24 (ix2 p j) = Ideal.div (∑ k : Fin 4096, w (ix2 p k) * x24 (ix2 k j)) (∑ k : Fin 4096, w (ix2 p k)) := by
  unfold ov
  rw [shapeCast_self]
  refine (divf_apply _ _ _).trans ?_
  refine congrArg₂ Ideal.div ?_ ?_
  · exact PlainMatmul.matmul_zero_apply_of_eq _ rfl none _ _ p j
  · refine (col_bcast _ _ _ p j).trans ?_
    exact row_sum w _ _ _ p

/-- THE STORED VALUE AT (p, j) is the one-row arithmetic of the specification on row p of the queries and of the mask,
    against the resident matrices. -/
theorem pay_apply (x0 : Vec Ideal S256x512 .f32) (x2 : Vec Ideal S512x256 .bf16) (x5 : Vec Ideal S1x256 .f32) (x10 : Vec Ideal S256x4096 .bf16) (x18 : Vec Ideal S256x4096 .i32) (x24 : Vec Ideal S4096x256 .bf16) (p j : Fin 256) : k0_pay1 (F := Ideal) x0 x2 x5 x10 x18 x24 (ix2 p j) = kernelEntry (fun a => x0 (ix2 p a)) (fun k => x18 (ix2 p k)) (fun a d => x2 (ix2 a d)) (fun d => x5 (ix2 0 d)) (fun d k => x10 (ix2 d k)) (fun k j' => x24 (ix2 k j')) j := by
  rw [pay_eq]
  -- the scores of row p are the specification's
  have hs : ∀ k : Fin 4096, sv (qv x0 x2 x5) x10 (ix2 p k)
      = kScore (fun a => x0 (ix2 p a)) (fun a d => x2 (ix2 a d)) (fun d => x5 (ix2 0 d)) (fun d k => x10 (ix2 d k)) k := by
    intro k
    refine (sv_apply _ x10 p k).trans ?_
    unfold kScore
    refine Finset.sum_congr rfl fun d _ => ?_
    exact congrArg (· * x10 (ix2 d k)) (qv_apply x0 x2 x5 p d)
  -- so are its weights
  have hw : ∀ k : Fin 4096, wv (sv (qv x0 x2 x5) x10) x18 (ix2 p k)
      = kWeight (fun a => x0 (ix2 p a)) (fun k => x18 (ix2 p k)) (fun a d => x2 (ix2 a d)) (fun d => x5 (ix2 0 d)) (fun d k => x10 (ix2 d k)) k := by
    intro k
    refine (wv_apply _ x18 p k).trans ?_
    unfold kWeight
    rw [hs k, show (fun k' => sv (qv x0 x2 x5) x10 (ix2 p k')) = kScore (fun a => x0 (ix2 p a)) (fun a d => x2 (ix2 a d)) (fun d => x5 (ix2 0 d)) (fun d k => x10 (ix2 d k)) from funext hs]
  refine (ov_apply _ x24 p j).trans ?_
  unfold kernelEntry
  refine congrArg₂ Ideal.div ?_ ?_
  · exact Finset.sum_congr rfl fun k _ => congrArg (· * x24 (ix2 k j)) (hw k)
  · exact Finset.sum_congr rfl fun k _ => hw k

end AdjAtten.Ker
end
-- ==== Proof.KerHost.lean ====
/-
  The four arrays the host program computes before the kernel's call, read at an entry in terms of the argument arrays.

  With g = 1/16 the single-precision constant 0x3D800000:
    * the scaled transposed query weights:  WqT(a, d) = Wq(d, a) · g          (a < 512, d < 256);
    * the scaled query bias as a row:       bq'(0, d) = bq(d) · g             (d < 256);
    * the transposed key projection:        KT(d, k)  = (∑_b e(k, b) · Wk(d, b)) + bk(d)   (d < 256, k < 4096);
    * the value matrix:                     Vm(k, j)  = w(k) · e(k, j)        (k < 4096, j < 256).
  On the extended reals the narrowing conversions are the identity, a transpose swaps the two coordinates, a broadcast
  repeats its operand along the new axis, a reshape keeps the row-major position, and the host's contraction is the
  plain sum over the contracted coordinate.
-/
import proofs.«418450_j89223650607749_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

namespace AdjAtten.KerHost

open Cert.KernelIdeal Cert.KernelIdeal.Gen Idealize.ShloMosaic Idealize.ShloMosaic.ValueIdx Idealize.SL.Sem
open Idealize.ShloMosaic.StableHlo Idealize.ShloMosaic.TcCoe

variable (m : (ℓ : Loc nD τ sig) → Buf (Elt Ideal) ℓ) (c : Dev nD)

/-- The product and the sum of two extended reals. -/
local infixl:70 " *ₑ " => HMul.hMul (α := EReal) (β := EReal) (γ := EReal)
local infixl:65 " +ₑ " => HAdd.hAdd (α := EReal) (β := EReal) (γ := EReal)

/-! ## Each array as the composite of its operations applied to the argument arrays -/

/-- The first array: the transpose of argument 4 times the broadcast constant, narrowed. -/
theorem v3_eq : (V m c main_v3 : S512x256.Idx → EReal)
    = truncf (F := Ideal) .bf16 (mulf (F := Ideal) (φ := .f32) (transpose S512x256 [1, 0] (m ((c : Thread nD τ).loc main_arg4) : S256x512.Idx → EReal) transposes_S256x512_S512x256_1_0)
        (broadcastInDim S512x256 ![] bcast_S_S512x256 (constant (F := Ideal) S_ .f32 0x3D800000#32))) bitsLt_bf16_f32 := by
  dsimp only [Gen.V, Gen.hostOps0]; after_results

/-- The second array: argument 5 times the broadcast constant, reshaped to one row. -/
theorem v6_eq : (V m c main_v6 : S1x256.Idx → EReal)
    = shapeCast S1x256 (mulf (F := Ideal) (φ := .f32) (m ((c : Thread nD τ).loc main_arg5) : S256.Idx → EReal)
        (broadcastInDim S256 ![] bcast_S_S256 (constant (F := Ideal) S_ .f32 0x3D800000#32))) shapeCasts_S256_S1x256 := by
  dsimp only [Gen.V, Gen.hostOps0]; after_results; rfl

/-- The third array: the contraction of argument 1 with the transpose of argument 6, plus argument 7 repeated down the
    rows, transposed and narrowed. -/
theorem v13_eq : (V m c main_v13 : S256x4096.Idx → EReal)
    = truncf (F := Ideal) .bf16 (transpose S256x4096 [1, 0]
        (addf (F := Ideal) (φ := .f32)
          (Host.dotGeneral (F := Ideal) (φ₁ := .f32) (φ₂ := .f32) dot_S4096x256_S256x256_S4096x256_1_0_0_1_n_n none (m ((c : Thread nD τ).loc main_arg1) : S4096x256.Idx → EReal)
            (transpose S256x256 [1, 0] (m ((c : Thread nD τ).loc main_arg6) : S256x256.Idx → EReal) transposes_S256x256_S256x256_1_0))
          (broadcastInDim S4096x256 ![0, 1] bcast_S1x256_S4096x256_0_1
            (broadcastInDim S1x256 ![1] bcast_S256_S1x256_1 (m ((c : Thread nD τ).loc main_arg7) : S256.Idx → EReal))))
        transposes_S4096x256_S256x4096_1_0) bitsLt_bf16_f32 := by
  dsimp only [Gen.V, Gen.hostOps0]; after_results

/-- The fourth array: argument 2 repeated along the rows times argument 1, narrowed. -/
theorem v17_eq : (V m c main_v17 : S4096x256.Idx → EReal)
    = truncf (F := Ideal) .bf16 (mulf (F := Ideal) (φ := .f32)
        (broadcastInDim S4096x256 ![0, 1] bcast_S4096x1_S4096x256_0_1
          (broadcastInDim S4096x1 ![0] bcast_S4096_S4096x1_0 (m ((c : Thread nD τ).loc main_arg2) : S4096.Idx → EReal)))
        (m ((c : Thread nD τ).loc main_arg1) : S4096x256.Idx → EReal)) bitsLt_bf16_f32 := by
  dsimp only [Gen.V, Gen.hostOps0]; after_results

/-! ## The four arrays read at an entry -/

/-- Entry (a, d) of the first array: entry (d, a) of argument 4 times the constant one sixteenth. -/
theorem wqT_apply (a : Fin 512) (d : Fin 256) :
    (V m c main_v3 : S512x256.Idx → EReal) (ix2 a d)
      = (m ((c : Thread nD τ).loc main_arg4) : S256x512.Idx → EReal) (ix2 d a) *ₑ Ideal.ofBits .f32 0x3D800000#32 := by
  refine (congrFun (v3_eq m c) (ix2 a d)).trans ?_
  rw [truncf_apply, mulf_apply]
  rw [transpose_apply [1, 0] _ transposes_S256x512_S512x256_1_0 (ix2 a d) (ix2 d a)
    (fun b => match b with | ⟨0, _⟩ => rfl | ⟨1, _⟩ => rfl)]
  rfl

/-- Entry (0, d) of the second array: entry d of argument 5 times the constant one sixteenth. -/
theorem bqrow_apply (d : Fin 256) :
    (V m c main_v6 : S1x256.Idx → EReal) (ix2 0 d)
      = (m ((c : Thread nD τ).loc main_arg5) : S256.Idx → EReal) (ix1 d) *ₑ Ideal.ofBits .f32 0x3D800000#32 := by
  refine (congrFun (v6_eq m c) (ix2 0 d)).trans ?_
  rw [shapeCast_apply _ shapeCasts_S256_S1x256 (ix2 (0 : Fin 1) d) (ix1 d)
    (by rw [Shape.rowMajor_val_two, Shape.rowMajor_val_one]; show d.val = 0 * 256 + d.val; omega)]
  rfl

/-- Entry (k, j) of the fourth array: entry k of argument 2 times entry (k, j) of argument 1. -/
theorem val_apply (k : Fin 4096) (j : Fin 256) :
    (V m c main_v17 : S4096x256.Idx → EReal) (ix2 k j)
      = (m ((c : Thread nD τ).loc main_arg2) : S4096.Idx → EReal) (ix1 k) *ₑ (m ((c : Thread nD τ).loc main_arg1) : S4096x256.Idx → EReal) (ix2 k j) := by
  refine (congrFun (v17_eq m c) (ix2 k j)).trans ?_
  rw [truncf_apply, mulf_apply]
  rw [broadcastInDim_apply ![0, 1] bcast_S4096x1_S4096x256_0_1 _ (ix2 k j) (ix2 k (0 : Fin 1))
    (fun a => match a with
      | ⟨0, _⟩ => by show k.val = if (4096 : Nat) = 1 then 0 else k.val; rw [if_neg (by decide)]
      | ⟨1, _⟩ => by show 0 = if (1 : Nat) = 1 then 0 else j.val; rw [if_pos rfl])]
  rw [broadcastInDim_apply ![0] bcast_S4096_S4096x1_0 _ (ix2 k (0 : Fin 1)) (ix1 k)
    (fun a => match a with
      | ⟨0, _⟩ => by show k.val = if (4096 : Nat) = 1 then 0 else k.val; rw [if_neg (by decide)])]

/-! ## The key projection: the host's contraction read at an entry -/

/-- The contraction's left operand is read on its row axis at the output's row; -/
theorem lhs_at0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- on its column axis at the contracted coordinate. -/
theorem lhs_at1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand is read on its row axis at the contracted coordinate; -/
theorem rhs_at0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- on its column axis at the output's column. -/
theorem rhs_at1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The host's contraction of a 4096×256 array with a 256×256 array, read at (k, d): the sum over the contracted
    coordinate b of x(k, b) · y(b, d). -/
theorem hostDot_apply (x : S4096x256.Idx → EReal) (y : S256x256.Idx → EReal) (k : Fin 4096) (d : Fin 256) :
    Host.dotGeneral (F := Ideal) (φ₁ := .f32) (φ₂ := .f32) dot_S4096x256_S256x256_S4096x256_1_0_0_1_n_n none x y (ix2 k d)
      = ∑ b : Fin 256, x (ix2 k b) * y (ix2 b d) := by
  simp only [Host.dotGeneral]
  rw [Ideal.dotGeneral_apply,
    ← Equiv.sum_comp (contrEquiv1 dot_S4096x256_S256x256_S4096x256_1_0_0_1_n_n 256 rfl rfl).symm]
  refine Finset.sum_congr rfl fun b _ => ?_
  have hb := contrEquiv1_symm_val dot_S4096x256_S256x256_S4096x256_1_0_0_1_n_n 256 rfl rfl b
  have el : dot_S4096x256_S256x256_S4096x256_1_0_0_1_n_n.lhsIdx (ix2 k d)
      ((contrEquiv1 dot_S4096x256_S256x256_S4096x256_1_0_0_1_n_n 256 rfl rfl).symm b) = ix2 k b :=
    funext fun a => Fin.ext (by
      match a with
      | ⟨0, _⟩ => exact lhs_at0 _ _
      | ⟨1, _⟩ => exact (lhs_at1 _ _).trans hb)
  have er : dot_S4096x256_S256x256_S4096x256_1_0_0_1_n_n.rhsIdx (ix2 k d)
      ((contrEquiv1 dot_S4096x256_S256x256_S4096x256_1_0_0_1_n_n 256 rfl rfl).symm b) = ix2 b d :=
    funext fun a => Fin.ext (by
      match a with
      | ⟨0, _⟩ => exact (rhs_at0 _ _).trans hb
      | ⟨1, _⟩ => exact rhs_at1 _ _)
  rw [el, er]

/-- Entry (d, k) of the third array: the key projection of row k of argument 1 by row d of argument 6, plus entry d
    of argument 7. -/
theorem kpT_apply (d : Fin 256) (k : Fin 4096) :
    (V m c main_v13 : S256x4096.Idx → EReal) (ix2 d k)
      = (∑ b : Fin 256, (m ((c : Thread nD τ).loc main_arg1) : S4096x256.Idx → EReal) (ix2 k b) *ₑ (m ((c : Thread nD τ).loc main_arg6) : S256x256.Idx → EReal) (ix2 d b))
        +ₑ (m ((c : Thread nD τ).loc main_arg7) : S256.Idx → EReal) (ix1 d) := by
  refine (congrFun (v13_eq m c) (ix2 d k)).trans ?_
  rw [truncf_apply]
  rw [transpose_apply [1, 0] _ transposes_S4096x256_S256x4096_1_0 (ix2 d k) (ix2 k d)
    (fun b => match b with | ⟨0, _⟩ => rfl | ⟨1, _⟩ => rfl)]
  rw [addf_apply, hostDot_apply]
  rw [broadcastInDim_apply ![0, 1] bcast_S1x256_S4096x256_0_1 _ (ix2 k d) (ix2 (0 : Fin 1) d)
    (fun a => match a with
      | ⟨0, _⟩ => by show 0 = if (1 : Nat) = 1 then 0 else k.val; rw [if_pos rfl]
      | ⟨1, _⟩ => by show d.val = if (256 : Nat) = 1 then 0 else d.val; rw [if_neg (by decide)])]
  rw [broadcastInDim_apply ![1] bcast_S256_S1x256_1 _ (ix2 (0 : Fin 1) d) (ix1 d)
    (fun a => match a with
      | ⟨0, _⟩ => by show d.val = if (256 : Nat) = 1 then 0 else d.val; rw [if_neg (by decide)])]
  refine congrArg (· +ₑ _) (Finset.sum_congr rfl fun b _ => ?_)
  rw [transpose_apply [1, 0] _ transposes_S256x256_S256x256_1_0 (ix2 b d) (ix2 d b)
    (fun a => match a with | ⟨0, _⟩ => rfl | ⟨1, _⟩ => rfl)]

end AdjAtten.KerHost

end
-- ==== Proof.SoftmaxLaw.lean ====
/-
  The algebra that joins the two programs, free of any program.

  * The softmax law (Proof/LibSoftmaxLaw.lean, named here too): the kernel multiplies each weight `exp (s k - shift)` by the
    mask (0 or 1) and divides the weighted sum by the sum of the weights; the reference replaces a dropped score by -∞ (its
    weight is `exp (-∞) = 0`), normalises each weight and then sums. Both are the weighted average over the kept indices,
    whatever the real shift, as soon as one index is kept; and the shifts the programs use, maxima of finitely many reals
    folded from -∞, are reals.
  * Folding the scale 1/16 into the projection's weights and bias is dividing the score by 16.
  * The three float words the programs carry: 1/16, 16 and -∞.
-/
import proofs.«418450_j89223650607749_2_alg».proof.Proof.Spec
import proofs.«418450_j89223650607749_2_alg».proof.Proof.LibPlainMatmul

noncomputable section

namespace AdjAtten.Law

open Idealize.ShloMosaic

export SoftmaxLaw (fold_max_coe fold_max_masked kernel_form reference_form)

/-- Folding the scale 1/16 into the weights and the bias of the projection divides the score by 16. -/
theorem score_fold {A D : Type} [Fintype A] [Fintype D] (g : A → ℝ) (W : D → A → ℝ) (b : D → ℝ) (K : D → ℝ) :
    ∑ d, ((∑ a, g a * (W d a * (1 / 16))) + b d * (1 / 16)) * K d = (∑ d, ((∑ a, g a * W d a) + b d) * K d) / 16 := by
  rw [Finset.sum_div]; refine Finset.sum_congr rfl fun d _ => ?_
  have hs : ∑ a, g a * (W d a * (1 / 16)) = (∑ a, g a * W d a) * (1 / 16) := by
    rw [Finset.sum_mul]; exact Finset.sum_congr rfl fun a _ => by ring
  rw [hs]; ring

/-- The f32 word 0x3D800000 is 1/16. -/
theorem ofBits_sixteenth : Ideal.ofBits .f32 0x3D800000#32 = (((1 / 16 : ℝ)) : EReal) := by
  simp [Ideal.ofBits, Ideal.ieee, -EReal.coe_mul]; norm_num
/-- The f32 word 0x41800000 is 16. -/
theorem ofBits_sixteen : Ideal.ofBits .f32 0x41800000#32 = ((16 : ℝ) : EReal) := by
  simp [Ideal.ofBits, Ideal.ieee, -EReal.coe_mul]; norm_num
/-- The f32 word 0xFF800000 is -∞. -/
theorem ofBits_neg_inf : Ideal.ofBits .f32 0xFF800000#32 = (⊥ : EReal) := by
  simp [Ideal.ofBits, Ideal.ieee]

end AdjAtten.Law

end
-- ==== Proof.KerAlgebra.lean ====
/-
  The kernel's arithmetic for one entry of the result, taken over the whole argument arrays, is the specification's entry.

  The kernel works on the extended reals. When every float entry is a real number, each product and each finite sum it
  forms is the coercion of the same product or sum of reals, so the projected keys, the scores and the value matrix are
  coercions of the specification's. The scale 1/16 that the kernel folds into the query projection's weights and bias is
  the specification's division of the score by 16. The maximum of the scores over all keys is then a real number m, and
  the mask word (0 or 1) read as a number is the indicator of "column kept". What remains is the softmax identity: the
  weights exp (score - m) times the indicator, summed against the values and divided by their sum, are the weighted
  average over the kept columns, whatever the shift m, as soon as the row keeps one column.
-/
import proofs.«418450_j89223650607749_2_alg».proof.Proof.Spec
import proofs.«418450_j89223650607749_2_alg».proof.Proof.SoftmaxLaw
import proofs.«418450_j89223650607749_2_alg».proof.Proof.LibPlainMatmul

noncomputable section

namespace AdjAtten.KerAlg

open Idealize.ShloMosaic Idealize.ShloMosaic.ValueIdx AdjAtten

variable (ge : A2 16384 512) (se : A2 4096 256) (sw : A1 4096) (mask : M2 16384 4096)
  (Wq : A2 256 512) (bq : A1 256) (Wk : A2 256 256) (bk : A1 256)

/-- The projected key entry (k, d), formed on the extended reals from finite arrays, is the real K(k, d). -/
theorem key_entry (h1 : Finite se) (h6 : Finite Wk) (h7 : Finite bk) (k : Fin 4096) (d : Fin 256) :
    (∑ b : Fin 256, se (ix2 k b) * Wk (ix2 d b)) + bk (ix1 d) = ((kproj se Wk bk k d : ℝ) : EReal) := by
  unfold kproj
  rw [EReal.coe_add, PlainMatmul.coe_sum, ← h7 (ix1 d)]
  congr 1
  refine Finset.sum_congr rfl fun b _ => ?_
  rw [EReal.coe_mul, ← h1 (ix2 k b), ← h6 (ix2 d b)]

/-- The value entry (k, j): the weight of row k times the embedding entry. -/
theorem value_entry (h1 : Finite se) (h2 : Finite sw) (k : Fin 4096) (j : Fin 256) :
    sw (ix1 k) * se (ix2 k j) = ((value se sw k j : ℝ) : EReal) := by
  unfold value
  rw [EReal.coe_mul, ← h2 (ix1 k), ← h1 (ix2 k j)]

/-- The kernel's score of row r against key k, with the scale 1/16 folded into the query projection, is the
    specification's score. -/
theorem kScore_eq (h0 : Finite ge) (h1 : Finite se) (h4 : Finite Wq) (h5 : Finite bq) (h6 : Finite Wk) (h7 : Finite bk)
    (r : Fin 16384) (k : Fin 4096) :
    kScore (fun a => ge (ix2 r a)) (fun a d => Wq (ix2 d a) * Ideal.ofBits .f32 0x3D800000#32)
        (fun d => bq (ix1 d) * Ideal.ofBits .f32 0x3D800000#32)
        (fun d k => (∑ b : Fin 256, se (ix2 k b) * Wk (ix2 d b)) + bk (ix1 d)) k
      = ((score ge se Wq bq Wk bk r k : ℝ) : EReal) := by
  -- in the reals, folding 1/16 into the weights and the bias divides the score by 16
  have hs := Law.score_fold (fun a : Fin 512 => (ge (ix2 r a)).toReal)
    (fun (d : Fin 256) (a : Fin 512) => (Wq (ix2 d a)).toReal) (fun d : Fin 256 => (bq (ix1 d)).toReal)
    (fun d : Fin 256 => kproj se Wk bk k d)
  beta_reduce at hs
  unfold score qproj
  rw [← hs, PlainMatmul.coe_sum]
  unfold kScore
  beta_reduce
  refine Finset.sum_congr rfl fun d _ => ?_
  rw [EReal.coe_mul, EReal.coe_add, PlainMatmul.coe_sum, EReal.coe_mul, ← h5 (ix1 d), ← Law.ofBits_sixteenth,
    key_entry se Wk bk h1 h6 h7 k d]
  congr 2
  refine Finset.sum_congr rfl fun a _ => ?_
  rw [EReal.coe_mul, EReal.coe_mul, ← h0 (ix2 r a), ← h4 (ix2 d a), ← Law.ofBits_sixteenth]

/-- A mask word that is 0 or 1, read as a number, is the indicator of "not zero". -/
theorem mask_num (h01 : Mask01 mask) (r : Fin 16384) (k : Fin 4096) :
    (((mask (ix2 r k)).toInt : ℝ) : EReal) = if kept mask r k then 1 else 0 := by
  have e0 : (0#32 : BitVec 32).toInt = 0 := by decide
  have e1 : (1#32 : BitVec 32).toInt = 1 := by decide
  rcases h01 (ix2 r k) with h | h
  · have hk : ¬ kept mask r k := fun hn => hn h
    rw [if_neg hk, h, e0, Int.cast_zero, EReal.coe_zero]
  · have hk : kept mask r k := by
      unfold kept; rw [h]; decide
    rw [if_pos hk, h, e1, Int.cast_one, EReal.coe_one]

theorem kernelEntry_eq (h0 : Finite ge) (h1 : Finite se) (h2 : Finite sw) (h4 : Finite Wq) (h5 : Finite bq)
    (h6 : Finite Wk) (h7 : Finite bk) (h01 : Mask01 mask) (hrow : RowKept mask) (r : Fin 16384) (j : Fin 256) :
    kernelEntry (fun a => ge (ix2 r a)) (fun k => mask (ix2 r k))
        (fun a d => Wq (ix2 d a) * Ideal.ofBits .f32 0x3D800000#32)
        (fun d => bq (ix1 d) * Ideal.ofBits .f32 0x3D800000#32)
        (fun d k => (∑ b : Fin 256, se (ix2 k b) * Wk (ix2 d b)) + bk (ix1 d))
        (fun k j' => sw (ix1 k) * se (ix2 k j')) j
      = ((resultAt ge se sw mask Wq bq Wk bk r j : ℝ) : EReal) := by
  -- the scores against all keys are the coercions of the specification's scores
  have hsc : kScore (fun a => ge (ix2 r a)) (fun a d => Wq (ix2 d a) * Ideal.ofBits .f32 0x3D800000#32)
        (fun d => bq (ix1 d) * Ideal.ofBits .f32 0x3D800000#32)
        (fun d k => (∑ b : Fin 256, se (ix2 k b) * Wk (ix2 d b)) + bk (ix1 d))
      = fun k => ((score ge se Wq bq Wk bk r k : ℝ) : EReal) :=
    funext fun k => kScore_eq ge se Wq bq Wk bk h0 h1 h4 h5 h6 h7 r k
  -- their maximum over all keys is a real number
  haveI : Nonempty (Fin 4096) := ⟨0⟩
  obtain ⟨m, hm⟩ := Law.fold_max_coe (fun k : Fin 4096 => score ge se Wq bq Wk bk r k)
  unfold kernelEntry kWeight
  rw [hsc, hm]
  simp only [value_entry se sw h1 h2]
  unfold resultAt
  exact Law.kernel_form (score ge se Wq bq Wk bk r) (fun k => value se sw k j) (kept mask r) (hrow r) m
    (fun k => (((mask (ix2 r k)).toInt : ℝ) : EReal)) (fun k => mask_num mask h01 r k)

end AdjAtten.KerAlg

end
-- ==== Proof.KerValue.lean ====
/-
  The kernel's result array, as one function of the argument arrays.

  The grid has 64 points; point t computes rows 256·t … 256·t + 255 of the result from rows 256·t … of the queries and of
  the mask and from the four resident matrices, which every point reads whole. So what point t writes back is block t of
  ONE whole-array function: entry (r, j) is the kernel's arithmetic for one row (`kernelEntry`) on row r of the queries,
  row r of the mask and the resident matrices, at column j. Each input block is read where the output's block says:
  the row blocks move with the output's (block index t on the row axis), the resident matrices sit at block (0, 0).
  Row r lies in the block of point r / 256, so the 64 blocks cover the array and it ends holding that function.
  With the resident matrices read as the host program computes them from the arguments, and the arguments finite, the
  mask 0/1 and every row keeping a column, that function is the specification's result.
-/
import proofs.«418450_j89223650607749_2_alg».proof.Proof.Gen.KernelIdeal.Value
import proofs.«418450_j89223650607749_2_alg».proof.Proof.Spec
import proofs.«418450_j89223650607749_2_alg».proof.Proof.KerPayload
import proofs.«418450_j89223650607749_2_alg».proof.Proof.KerHost
import proofs.«418450_j89223650607749_2_alg».proof.Proof.KerAlgebra
import Idealize.ShloMosaic.Lib.Pipeline.Value
import Idealize.ShloMosaic.Lib.ValueIdx

set_option maxRecDepth 16384

noncomputable section

namespace AdjAtten.KerValue

open Cert.KernelIdeal Cert.KernelIdeal.Gen Idealize.ShloMosaic Idealize.ShloMosaic.TcCoe Idealize.SL.Sem
open Idealize.ShloMosaic.ValueIdx AdjAtten
open Idealize.ShloMosaic.Pipeline (Dat)

variable (m : (ℓ : Loc nD τ sig) → Buf (Elt Ideal) ℓ) (ρ : Dev nD → PrngReg)

/-- The payload lemma at any index of the block: the index is (its row, its column). -/
theorem pay_at (x0 : Vec Ideal S256x512 .f32) (x2 : Vec Ideal S512x256 .bf16) (x5 : Vec Ideal S1x256 .f32)
    (x10 : Vec Ideal S256x4096 .bf16) (x18 : Vec Ideal S256x4096 .i32) (x24 : Vec Ideal S4096x256 .bf16) (y : S256x256.Idx) :
    k0_pay1 (F := Ideal) x0 x2 x5 x10 x18 x24 y
      = kernelEntry (fun a => x0 (ix2 (y 0) a)) (fun k => x18 (ix2 (y 0) k)) (fun a d => x2 (ix2 a d)) (fun d => x5 (ix2 0 d))
          (fun d k => x10 (ix2 d k)) (fun k j' => x24 (ix2 k j')) (y 1) := by
  conv_lhs => rw [eq_ix2 y]
  exact AdjAtten.Ker.pay_apply x0 x2 x5 x10 x18 x24 (y 0) (y 1)

/-- Equal rows, masks, matrices and columns give equal entries. -/
theorem kernelEntry_congr {q q' : Fin 512 → EReal} {μ μ' : Fin 4096 → BitVec 32} {W W' : Fin 512 → Fin 256 → EReal}
    {b b' : Fin 256 → EReal} {K K' : Fin 256 → Fin 4096 → EReal} {Vm Vm' : Fin 4096 → Fin 256 → EReal} {j j' : Fin 256}
    (hq : q = q') (hμ : μ = μ') (hW : W = W') (hb : b = b') (hK : K = K') (hV : Vm = Vm') (hj : j = j') :
    kernelEntry q μ W b K Vm j = kernelEntry q' μ' W' b' K' Vm' j' := by
  subst hq hμ hW hb hK hV hj; rfl

/-- The origin of a rank-2 rectangle. -/
theorem hz : (![0, 0] : Fin 2 → Nat) = fun _ => 0 := funext fun a => by fin_cases a <;> rfl

/-- The output array as one function of the arrays the region finds. -/
def Gk (c : Dev nD) : S16384x256.Idx → EReal := fun i =>
  kernelEntry (fun a => (V m c main_arg0 : S16384x512.Idx → EReal) (ix2 (i 0) a))
    (fun k => (V m c main_arg3 : S16384x4096.Idx → BitVec 32) (ix2 (i 0) k))
    (fun a d => (V m c main_v3 : S512x256.Idx → EReal) (ix2 a d))
    (fun d => (V m c main_v6 : S1x256.Idx → EReal) (ix2 0 d))
    (fun d k => (V m c main_v13 : S256x4096.Idx → EReal) (ix2 d k))
    (fun k j => (V m c main_v17 : S4096x256.Idx → EReal) (ix2 k j)) (i 1)

/-- The printed index maps, decided over the 64 points: the queries', the mask's and the result's blocks sit at (t, 0),
    the four resident matrices' at (0, 0). -/
theorem idx_facts : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = 0 ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0 ∧
    win0_5.index t (0 : Fin 2) = 0 ∧ win0_5.index t (1 : Fin 2) = 0 ∧
    win0_6.index t (0 : Fin 2) = t.val ∧ win0_6.index t (1 : Fin 2) = 0 :=
  (by decide +kernel : ∀ t : Fin grid0.N, _)

/-- What point t writes back is block t of `Gk`. -/
theorem flushed_eq (c : Dev nD) (t : Fin cfg0.N) :
    (dats m 0 c).flushed 6 t = ((cfg0.win 6).blk t).view.read (Elt Ideal) (Gk m c) := by
  show (cfg0.win 6).cut (grid0.coords t) ((dats m 0 c).after 6 t) = _
  rw [after0_6]
  unfold out0_6
  rw [View.canon_unit_zero hz]
  simp only [View.ld_unit_zero (S := S256x512) hz, View.ld_unit_zero (S := S512x256) hz, View.ld_unit_zero (S := S1x256) hz,
    View.ld_unit_zero (S := S256x4096) hz, View.ld_unit_zero (S := S4096x256) hz]
  funext y
  obtain ⟨a0, a1, b0, b1, c0, c1, d0, d1, e0, e1, f0, f1, g0, g1⟩ := idx_facts t
  have hy0 : (y 0).val < 256 := (y 0).isLt
  have hy1 : (y 1).val < 256 := (y 1).isLt
  show k0_pay1 (F := Ideal) (iblk m c 0 t) (iblk m c 2 t) (iblk m c 3 t) (iblk m c 4 t) (iblk m c 1 t) (iblk m c 5 t) y
    = Gk m c (((cfg0.win 6).blk t).view.emb y)
  refine (pay_at (iblk m c 0 t) (iblk m c 2 t) (iblk m c 3 t) (iblk m c 4 t) (iblk m c 1 t) (iblk m c 5 t) y).trans ?_
  unfold Gk
  refine kernelEntry_congr (funext fun a => ?_) (funext fun k => ?_) (funext fun a => funext fun d => ?_) (funext fun d => ?_)
    (funext fun d => funext fun k => ?_) (funext fun k => funext fun j => ?_) ?_
  · show V m c main_arg0 (((cfg0.win 0).blk t).view.emb (ix2 (y 0) a)) = V m c main_arg0 (ix2 ((((cfg0.win 6).blk t).view.emb y) 0) a)
    refine congrArg _ (funext fun ax => Fin.ext ?_)
    match ax with
    | ⟨0, _⟩ => show win0_0.index t (0 : Fin 2) * 256 + 1 * (y 0).val = win0_6.index t (0 : Fin 2) * 256 + 1 * (y 0).val; omega
    | ⟨1, _⟩ => show win0_0.index t (1 : Fin 2) * 512 + 1 * a.val = a.val; omega
  · show V m c main_arg3 (((cfg0.win 1).blk t).view.emb (ix2 (y 0) k)) = V m c main_arg3 (ix2 ((((cfg0.win 6).blk t).view.emb y) 0) k)
    refine congrArg _ (funext fun ax => Fin.ext ?_)
    match ax with
    | ⟨0, _⟩ => show win0_1.index t (0 : Fin 2) * 256 + 1 * (y 0).val = win0_6.index t (0 : Fin 2) * 256 + 1 * (y 0).val; omega
    | ⟨1, _⟩ => show win0_1.index t (1 : Fin 2) * 4096 + 1 * k.val = k.val; omega
  · show V m c main_v3 (((cfg0.win 2).blk t).view.emb (ix2 a d)) = V m c main_v3 (ix2 a d)
    refine congrArg _ (funext fun ax => Fin.ext ?_)
    match ax with
    | ⟨0, _⟩ => show win0_2.index t (0 : Fin 2) * 512 + 1 * a.val = a.val; omega
    | ⟨1, _⟩ => show win0_2.index t (1 : Fin 2) * 256 + 1 * d.val = d.val; omega
  · show V m c main_v6 (((cfg0.win 3).blk t).view.emb (ix2 0 d)) = V m c main_v6 (ix2 0 d)
    refine congrArg _ (funext fun ax => Fin.ext ?_)
    match ax with
    | ⟨0, _⟩ => show win0_3.index t (0 : Fin 2) * 1 + 1 * 0 = 0; omega
    | ⟨1, _⟩ => show win0_3.index t (1 : Fin 2) * 256 + 1 * d.val = d.val; omega
  · show V m c main_v13 (((cfg0.win 4).blk t).view.emb (ix2 d k)) = V m c main_v13 (ix2 d k)
    refine congrArg _ (funext fun ax => Fin.ext ?_)
    match ax with
    | ⟨0, _⟩ => show win0_4.index t (0 : Fin 2) * 256 + 1 * d.val = d.val; omega
    | ⟨1, _⟩ => show win0_4.index t (1 : Fin 2) * 4096 + 1 * k.val = k.val; omega
  · show V m c main_v17 (((cfg0.win 5).blk t).view.emb (ix2 k j)) = V m c main_v17 (ix2 k j)
    refine congrArg _ (funext fun ax => Fin.ext ?_)
    match ax with
    | ⟨0, _⟩ => show win0_5.index t (0 : Fin 2) * 4096 + 1 * k.val = k.val; omega
    | ⟨1, _⟩ => show win0_5.index t (1 : Fin 2) * 256 + 1 * j.val = j.val; omega
  · refine Fin.ext ?_
    show (y 1).val = win0_6.index t (1 : Fin 2) * 256 + 1 * (y 1).val
    omega

/-- An index of the output array is in point t's block iff each coordinate is in the block's range on its axis. -/
theorem mem_blk (t : Fin cfg0.N) (i : S16384x256.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v18).slice (win0_6.rect t)).set ↔ _
  rw [View.set_slice_whole, Rect.mem_set_unit]
  exact Iff.rfl

/-- Row r of the output lies in the block of point r / 256: the 64 blocks of 256 rows tile the array. -/
theorem cover (i : S16384x256.Idx) : ∃ t : Fin cfg0.N, (cfg0.win 6).flush t = true ∧ i ∈ ((cfg0.win 6).blk t).view.set := by
  have hi0 : (i 0).val < 16384 := (i 0).isLt
  have hi1 : (i 1).val < 256 := (i 1).isLt
  have ht : (i 0).val / 256 < 64 := by omega
  refine ⟨⟨(i 0).val / 256, ht⟩, flush0_6 _, ?_⟩
  rw [mem_blk]
  obtain ⟨-, -, -, -, -, -, -, -, -, -, -, -, g0, g1⟩ := idx_facts ⟨(i 0).val / 256, ht⟩
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [g0]; show (i 0).val / 256 * 256 ≤ (i 0).val ∧ (i 0).val < (i 0).val / 256 * 256 + 256; omega
  | ⟨1, _⟩ =>
    show win0_6.index ⟨(i 0).val / 256, ht⟩ (1 : Fin 2) * 256 ≤ (i 1).val ∧ (i 1).val < win0_6.index ⟨(i 0).val / 256, ht⟩ (1 : Fin 2) * 256 + 256
    rw [g1]; omega

/-- The output array after the run is `Gk`. -/
theorem final (c : Dev nD) : (dats m 0 c).arrAt 6 cfg0.N = Gk m c :=
  (dats m 0 c).arrAt_eq_of_cover 6 (Gk m c) (fun t _ => flushed_eq m c t) cover

/-- The facts about the argument arrays of one device that the precondition gives. -/
def ArgsOk (c : Dev nD) : Prop :=
  Finite (m ((c.tc : Thread nD τ).loc main_arg0) : S16384x512.Idx → EReal)
  ∧ Finite (m ((c.tc : Thread nD τ).loc main_arg1) : S4096x256.Idx → EReal)
  ∧ Finite (m ((c.tc : Thread nD τ).loc main_arg2) : S4096.Idx → EReal)
  ∧ Finite (m ((c.tc : Thread nD τ).loc main_arg4) : S256x512.Idx → EReal)
  ∧ Finite (m ((c.tc : Thread nD τ).loc main_arg5) : S256.Idx → EReal)
  ∧ Finite (m ((c.tc : Thread nD τ).loc main_arg6) : S256x256.Idx → EReal)
  ∧ Finite (m ((c.tc : Thread nD τ).loc main_arg7) : S256.Idx → EReal)
  ∧ Mask01 (m ((c.tc : Thread nD τ).loc main_arg3) : S16384x4096.Idx → BitVec 32)
  ∧ RowKept (m ((c.tc : Thread nD τ).loc main_arg3) : S16384x4096.Idx → BitVec 32)

/-- The specification's result of one device's argument arrays. -/
def spec (c : Dev nD) : S16384x256.Idx → EReal :=
  AdjAtten.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Under those facts the kernel's whole-array function is the specification's result: the queries and the mask are
    the arguments as launched, the resident matrices are the scaled transposed query weights, the scaled bias, the
    transposed key projection and the weighted embeddings, and the row's arithmetic is the softmax-weighted average. -/
theorem Gk_eq (c : Dev nD) (h : ArgsOk m c) : Gk m c = spec m c := by
  obtain ⟨h0, h1, h2, h4, h5, h6, h7, h01, hrow⟩ := h
  funext i
  unfold Gk spec AdjAtten.result
  refine (kernelEntry_congr (funext fun a => ?_) (funext fun k => ?_) (funext fun a => funext fun d => ?_)
    (funext fun d => ?_) (funext fun d => funext fun k => ?_) (funext fun k => funext fun j => ?_) rfl).trans
    (AdjAtten.KerAlg.kernelEntry_eq _ _ _ _ _ _ _ _ h0 h1 h2 h4 h5 h6 h7 h01 hrow (i 0) (i 1))
  · exact congrFun (V_main_arg0 m c) _
  · exact congrFun (V_main_arg3 m c) _
  · exact AdjAtten.KerHost.wqT_apply m c a d
  · exact AdjAtten.KerHost.bqrow_apply m c d
  · exact AdjAtten.KerHost.kpT_apply m c d k
  · exact AdjAtten.KerHost.val_apply m c k j

/-- The kernel's run: every weakly fair execution ends with the result array at the specification's result and the
    arguments unchanged. -/
theorem run (h : ∀ c : Dev nD, ArgsOk m c) :
    θ_run defs (onTc (τ := τ) (main (F := Ideal))) ⟨m, fun _ => 0, ρ⟩ fun r => ∀ c : Dev nD,
      r.2.mem ((c.tc : Thread nD τ).loc main_v18) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r hr c => ⟨(hr c).1.trans ((final m c).trans (Gk_eq m c (h c))), (hr c).2⟩)
    (Cert.KernelIdeal.Value.run_blocks m ρ)

end AdjAtten.KerValue

end
-- ==== Proof.RefValue.lean ====
/-
  The reference program's result is the specification.

  The reference computes, in order: the query projection Q = g · Wqᵀ + bq and the key projection K = e · Wkᵀ + bk; the
  scores Q · Kᵀ / 16; the masked scores, where a score whose mask word is zero is replaced by -∞; each row's maximum M of
  the masked scores (taken once more against -∞); the weights exp (masked score - M); each row's sum of the weights,
  started from 0; the normalised weights, weight / sum; the value matrix w(k) · e(k, j); and the product of the normalised
  weights with the value matrix.

  Each stage is read at one entry and shown to be the coercion of the specification's real term: on finite arguments an
  entry is the coercion of its real part, and the coercion commutes with products and finite sums. A row that keeps at
  least one column has a real maximum M, so every weight is exp of a real or of -∞, and the last stage is the softmax law
  in the reference's form: the weighted average over the kept columns.
-/
import proofs.«418450_j89223650607749_2_alg».proof.Proof.Gen.ReferenceIdeal.Read
import proofs.«418450_j89223650607749_2_alg».proof.Proof.Spec
import proofs.«418450_j89223650607749_2_alg».proof.Proof.SoftmaxLaw
import proofs.«418450_j89223650607749_2_alg».proof.Proof.LibPlainMatmul
import Idealize.ShloMosaic.Lib.StableHlo.Predicate

noncomputable section

namespace AdjAtten.Ref

open Idealize.ShloMosaic Idealize.ShloMosaic.ValueIdx Cert.ReferenceIdeal Cert.ReferenceIdeal.Gen Cert.ReferenceIdeal.Read

variable (x0 : (⟨S16384x512, .f32⟩ : BufTy).Contents (Elt Ideal)) (x1 : (⟨S4096x256, .f32⟩ : BufTy).Contents (Elt Ideal))
  (x2 : (⟨S4096, .f32⟩ : BufTy).Contents (Elt Ideal)) (x3 : (⟨S16384x4096, .i32⟩ : BufTy).Contents (Elt Ideal))
  (x4 : (⟨S256x512, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The query projection at (r, d): the sum over a of g(r, a) · Wq(d, a), plus bq(d); the transposed weight matrix read at
    (a, d) is Wq at (d, a), and the bias is broadcast along the rows. -/
theorem q_at (h0 : Finite x0) (h4 : Finite x4) (h5 : Finite x5) (r : Fin 16384) (d : Fin 256) :
    val_main_v4 (F := Ideal) x0 x4 x5 (ix2 r d) = ((qproj x0 x4 x5 r d : ℝ) : EReal) := by
  rw [val_main_v4_apply, val_main_v1_apply, val_main_v3_apply, val_main_v2_apply]
  unfold qproj
  rw [EReal.coe_add, PlainMatmul.coe_sum]
  refine congrArg₂ (· + ·) (Finset.sum_congr rfl fun a _ => ?_) ?_
  · rw [val_main_v0_apply, EReal.coe_mul]
    have e1 : lidx_main_v1 (ix2 r d) a = ix2 r a := by
      funext ax; match ax with | ⟨0, _⟩ => rfl | ⟨1, _⟩ => rfl
    have e2 : idx_main_v0 (ridx_main_v1 (ix2 r d) a) = ix2 d a := by
      funext ax; match ax with | ⟨0, _⟩ => rfl | ⟨1, _⟩ => rfl
    rw [e1, e2, ← h0 _, ← h4 _]
  · have e3 : idx_main_v2 (idx_main_v3 (ix2 r d)) = ix1 d := by
      funext ax; match ax with | ⟨0, _⟩ => rfl
    rw [e3, ← h5 _]

/-- The key projection at (k, d): the sum over b of e(k, b) · Wk(d, b), plus bk(d). -/
theorem k_at (h1 : Finite x1) (h6 : Finite x6) (h7 : Finite x7) (k : Fin 4096) (d : Fin 256) :
    val_main_v9 (F := Ideal) x1 x6 x7 (ix2 k d) = ((kproj x1 x6 x7 k d : ℝ) : EReal) := by
  rw [val_main_v9_apply, val_main_v6_apply, val_main_v8_apply, val_main_v7_apply]
  unfold kproj
  rw [EReal.coe_add, PlainMatmul.coe_sum]
  refine congrArg₂ (· + ·) (Finset.sum_congr rfl fun b _ => ?_) ?_
  · rw [val_main_v5_apply, EReal.coe_mul]
    have e1 : lidx_main_v6 (ix2 k d) b = ix2 k b := by
      funext ax; match ax with | ⟨0, _⟩ => rfl | ⟨1, _⟩ => rfl
    have e2 : idx_main_v5 (ridx_main_v6 (ix2 k d) b) = ix2 d b := by
      funext ax; match ax with | ⟨0, _⟩ => rfl | ⟨1, _⟩ => rfl
    rw [e1, e2, ← h1 _, ← h6 _]
  · have e3 : idx_main_v7 (idx_main_v8 (ix2 k d)) = ix1 d := by
      funext ax; match ax with | ⟨0, _⟩ => rfl
    rw [e3, ← h7 _]

/-- The score at (r, k): the sum over d of Q(r, d) · K(k, d), divided by 16; dividing by the real 16 is multiplying by 1/16. -/
theorem score_at (h0 : Finite x0) (h1 : Finite x1) (h4 : Finite x4) (h5 : Finite x5) (h6 : Finite x6) (h7 : Finite x7)
    (r : Fin 16384) (k : Fin 4096) :
    val_main_v13 (F := Ideal) x0 x1 x4 x5 x6 x7 (ix2 r k) = ((score x0 x1 x4 x5 x6 x7 r k : ℝ) : EReal) := by
  rw [val_main_v13_apply, val_main_v11_apply, val_main_v12_apply, val_main_cst_apply, Ideal.hostDivf_def, Ideal.ofBits_def,
    Law.ofBits_sixteen, Ideal.div_coe (by norm_num : (16 : ℝ) ≠ 0)]
  have hs : ∑ d : Fin 256, val_main_v4 (F := Ideal) x0 x4 x5 (lidx_main_v11 (ix2 r k) d)
        * val_main_v10 (F := Ideal) x1 x6 x7 (ridx_main_v11 (ix2 r k) d)
      = ((∑ d : Fin 256, qproj x0 x4 x5 r d * kproj x1 x6 x7 k d : ℝ) : EReal) := by
    rw [PlainMatmul.coe_sum]
    refine Finset.sum_congr rfl fun d _ => ?_
    have e1 : lidx_main_v11 (ix2 r k) d = ix2 r d := by
      funext ax; match ax with | ⟨0, _⟩ => rfl | ⟨1, _⟩ => rfl
    have e2 : idx_main_v10 (ridx_main_v11 (ix2 r k) d) = ix2 k d := by
      funext ax; match ax with | ⟨0, _⟩ => rfl | ⟨1, _⟩ => rfl
    rw [val_main_v10_apply, e1, e2, q_at x0 x4 x5 h0 h4 h5, k_at x1 x6 x7 h1 h6 h7, EReal.coe_mul]
  rw [hs, ← EReal.coe_mul]
  unfold score
  rw [mul_one_div]

/-- The masked score at (r, k): the score where the mask word is not zero, -∞ where it is zero (the comparison with the
    zero word gives the bit 1 exactly when the word is zero, and the select then takes -∞). -/
theorem masked_at (h0 : Finite x0) (h1 : Finite x1) (h4 : Finite x4) (h5 : Finite x5) (h6 : Finite x6) (h7 : Finite x7)
    (r : Fin 16384) (k : Fin 4096) :
    val_main_v16 (F := Ideal) x0 x1 x3 x4 x5 x6 x7 (ix2 r k)
      = if kept x3 r k then ((score x0 x1 x4 x5 x6 x7 r k : ℝ) : EReal) else ⊥ := by
  rw [val_main_v16_apply, val_main_v15_apply, val_main_v14_apply, val_main_c_apply, val_main_call0_v1_apply,
    val_main_call0_v0_apply, val_main_cst_0_apply, score_at x0 x1 x4 x5 x6 x7 h0 h1 h4 h5 h6 h7, Ideal.ofBits_def,
    Law.ofBits_neg_inf]
  by_cases hz : x3 (ix2 r k) = 0#32
  · rw [StableHlo.Predicate.cmpi_eq_iff.mpr hz, select_one, if_neg (fun hk : kept x3 r k => hk hz)]
  · rw [eq_zero_of_ne_one (fun hc => hz (StableHlo.Predicate.cmpi_eq_iff.mp hc)), select_zero, if_pos (show kept x3 r k from hz)]

/-- The value matrix at (k, j): w(k) · e(k, j), the weight broadcast along the columns. -/
theorem value_at (h1 : Finite x1) (h2 : Finite x2) (k : Fin 4096) (j : Fin 256) :
    val_main_v30 (F := Ideal) x1 x2 (ix2 k j) = ((value x1 x2 k j : ℝ) : EReal) := by
  have e : idx_main_v28 (idx_main_v29 (ix2 k j)) = ix1 k := by
    funext ax; match ax with | ⟨0, _⟩ => rfl
  rw [val_main_v30_apply, val_main_v29_apply, val_main_v28_apply, Ideal.mulf_def, e]
  unfold value
  rw [EReal.coe_mul, ← h2 _, ← h1 _]

/-- The row maximum at r: the maximum with -∞ of the fold of max, from -∞, of the masked scores over the column coordinate
    (the reduction over the column axis reads the source at the row's index with the column inserted, which is (r, k)). -/
theorem rowmax_at (h0 : Finite x0) (h1 : Finite x1) (h4 : Finite x4) (h5 : Finite x5) (h6 : Finite x6) (h7 : Finite x7)
    (r : Fin 16384) :
    val_main_v19 (F := Ideal) x0 x1 x3 x4 x5 x6 x7 (ix1 r)
      = max (⊥ : EReal) (Finset.univ.fold max (⊥ : EReal)
          (fun k : Fin 4096 => if kept x3 r k then ((score x0 x1 x4 x5 x6 x7 r k : ℝ) : EReal) else ⊥)) := by
  have hR : S16384x4096.Reduces [1] S16384 := by decide
  rw [val_main_v19_apply, val_main_v18_apply, val_main_cst_2_apply, Ideal.maximumf_def, Ideal.ofBits_def, Law.ofBits_neg_inf]
  refine congrArg (max ⊥) ?_
  unfold val_main_v17
  rw [Host.reduce_eq_fold_single FloatOps.maximumf _ _ reducesTo_S16384x4096_S16384_d1 hR h_S_ (ix1 r)]
  show (Finset.univ : Finset (Fin 4096)).fold max (Ideal.ofBits .f32 0xFF800000#32)
      (fun k => val_main_v16 (F := Ideal) x0 x1 x3 x4 x5 x6 x7 (hR.lift (ix1 r) k)) = _
  rw [Law.ofBits_neg_inf]
  refine congrArg (Finset.univ.fold max ⊥) (funext fun (k : Fin 4096) => ?_)
  have e : hR.lift (ix1 r) k = ix2 r k :=
    funext fun a => Fin.ext (by match a with | ⟨0, _⟩ => rfl | ⟨1, _⟩ => rfl)
  rw [e, masked_at x0 x1 x3 x4 x5 x6 x7 h0 h1 h4 h5 h6 h7]

/-- The weight at (r, k), once the row maximum is the real M: exp (masked score - M). The maximum is broadcast along the row. -/
theorem weight_at (h0 : Finite x0) (h1 : Finite x1) (h4 : Finite x4) (h5 : Finite x5) (h6 : Finite x6) (h7 : Finite x7)
    (r : Fin 16384) (M : ℝ) (hM : val_main_v19 (F := Ideal) x0 x1 x3 x4 x5 x6 x7 (ix1 r) = (M : EReal)) (k : Fin 4096) :
    val_main_v23 (F := Ideal) x0 x1 x3 x4 x5 x6 x7 (ix2 r k)
      = Ideal.exp ((if kept x3 r k then ((score x0 x1 x4 x5 x6 x7 r k : ℝ) : EReal) else ⊥) - (M : EReal)) := by
  have e : idx_main_v20 (idx_main_v21 (ix2 r k)) = ix1 r := by
    funext ax; match ax with | ⟨0, _⟩ => rfl
  rw [val_main_v23_apply, val_main_v22_apply, val_main_v21_apply, val_main_v20_apply, e, hM,
    masked_at x0 x1 x3 x4 x5 x6 x7 h0 h1 h4 h5 h6 h7, Ideal.hostUnary_exp_def, Ideal.subf_def]

/-- The row's sum of the weights: 0 plus the sum over the columns of exp (masked score - M). -/
theorem denom_at (h0 : Finite x0) (h1 : Finite x1) (h4 : Finite x4) (h5 : Finite x5) (h6 : Finite x6) (h7 : Finite x7)
    (r : Fin 16384) (M : ℝ) (hM : val_main_v19 (F := Ideal) x0 x1 x3 x4 x5 x6 x7 (ix1 r) = (M : EReal)) :
    val_main_v24 (F := Ideal) x0 x1 x3 x4 x5 x6 x7 (ix1 r)
      = (0 : EReal) + ∑ k' : Fin 4096,
          Ideal.exp ((if kept x3 r k' then ((score x0 x1 x4 x5 x6 x7 r k' : ℝ) : EReal) else ⊥) - (M : EReal)) := by
  rw [val_main_v24_apply, val_main_cst_3_apply, Ideal.ofBits_def, Ideal.ofBits_zero_f32]
  refine congrArg (0 + ·) (Finset.sum_congr rfl fun k' _ => ?_)
  have e : idx_main_v24 (ix1 r) k' = ix2 r k' := by
    funext ax; match ax with | ⟨0, _⟩ => rfl | ⟨1, _⟩ => rfl
  rw [e, weight_at x0 x1 x3 x4 x5 x6 x7 h0 h1 h4 h5 h6 h7 r M hM]

/-- The reference's result is the specification's: at (r, j) it is the sum over k of (weight / row sum) · value(k, j), which
    the softmax law in the reference's form turns into the weighted average over the kept columns. The real M is the row's
    maximum, a real because the row keeps a column. -/
theorem ref_eq (x0 : (⟨S16384x512, .f32⟩ : BufTy).Contents (Elt Ideal)) (x1 : (⟨S4096x256, .f32⟩ : BufTy).Contents (Elt Ideal))
    (x2 : (⟨S4096, .f32⟩ : BufTy).Contents (Elt Ideal)) (x3 : (⟨S16384x4096, .i32⟩ : BufTy).Contents (Elt Ideal))
    (x4 : (⟨S256x512, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (h0 : Finite x0) (h1 : Finite x1) (h2 : Finite x2) (h4 : Finite x4) (h5 : Finite x5) (h6 : Finite x6) (h7 : Finite x7)
    (hrow : RowKept x3) :
    Cert.ReferenceIdeal.Read.val_main_v31 (F := Ideal) x0 x1 x2 x3 x4 x5 x6 x7 = AdjAtten.result x0 x1 x2 x3 x4 x5 x6 x7 := by
  funext i
  obtain ⟨r, j, rfl⟩ : ∃ r j, i = ix2 r j := ⟨i 0, i 1, eq_ix2 i⟩
  obtain ⟨M, hM'⟩ := Law.fold_max_masked (score x0 x1 x4 x5 x6 x7 r) (kept x3 r) (hrow r)
  have hM : val_main_v19 (F := Ideal) x0 x1 x3 x4 x5 x6 x7 (ix1 r) = (M : EReal) :=
    (rowmax_at x0 x1 x3 x4 x5 x6 x7 h0 h1 h4 h5 h6 h7 r).trans hM'
  show _ = ((resultAt x0 x1 x2 x3 x4 x5 x6 x7 r j : ℝ) : EReal)
  unfold resultAt
  rw [← Law.reference_form (score x0 x1 x4 x5 x6 x7 r) (fun k => value x1 x2 k j) (kept x3 r) (hrow r) M,
    val_main_v31_apply]
  refine Finset.sum_congr rfl fun k _ => ?_
  have e1 : lidx_main_v31 (ix2 r j) k = ix2 r k := by
    funext ax; match ax with | ⟨0, _⟩ => rfl | ⟨1, _⟩ => rfl
  have e2 : ridx_main_v31 (ix2 r j) k = ix2 k j := by
    funext ax; match ax with | ⟨0, _⟩ => rfl | ⟨1, _⟩ => rfl
  have e3 : idx_main_v25 (idx_main_v26 (ix2 r k)) = ix1 r := by
    funext ax; match ax with | ⟨0, _⟩ => rfl
  rw [e1, e2, val_main_v27_apply, val_main_v26_apply, val_main_v25_apply, e3,
    denom_at x0 x1 x3 x4 x5 x6 x7 h0 h1 h4 h5 h6 h7 r M hM, weight_at x0 x1 x3 x4 x5 x6 x7 h0 h1 h4 h5 h6 h7 r M hM,
    value_at x1 x2 h1 h2, Ideal.hostDivf_def]

end AdjAtten.Ref

end
-- ==== Proof.lean ====
/-
  The kernel — linear query/key attention over 16384 queries and 4096 keys, the softmax taken over the keys a 0/1 mask
  keeps, the result the softmax-weighted average of the weighted key embeddings — against its reference, over the
  extended reals.

  Both programs compute, for query r and output column j,
      (∑_{k kept in row r} exp(score(r, k)) · value(k, j)) / (∑_{k kept in row r} exp(score(r, k))),
  with score(r, k) = (Q(r, ·) · K(k, ·)) / 16 (Proof/Spec.lean). They differ in how they get there: the kernel folds the
  exact scale 1/16 into the query projection's weights and bias, shifts the scores by the row's maximum over ALL keys,
  multiplies each weight by the mask word read as a number and divides the weighted sum by the sum of the weights at the
  end; the reference divides the scores by 16, replaces a dropped score by -∞ before taking the row's maximum, and
  normalises each weight before the weighted sum. On the reals these agree: the softmax does not depend on the shift, and
  a weight times 0 is the weight exp(-∞) = 0. On the extended reals that needs every float input finite (so that every
  product and sum is a real one), the mask word to be 0 or 1 (the reference only tests it against 0; the kernel multiplies
  by it) and every row to keep a column (a row that keeps none divides 0 by 0 in the kernel and normalises by 0 in the
  reference, which disagree): the precondition's three parts, decoded in Proof/PreDecode.lean.

  The frames are the generated ones. The kernel's result array is read block by block off its frame run
  (Proof/KerValue.lean, over the body's value at an entry, Proof/KerPayload.lean, and the arrays the host program
  computes before the call, Proof/KerHost.lean) and shown to be the specification (Proof/KerAlgebra.lean); the
  reference's generated run is read stage by stage (Proof/RefValue.lean); both lean on the softmax law
  (Proof/SoftmaxLaw.lean). The ideal pass rewrote nothing, so `preserves` has nothing to state.
-/
import proofs.«418450_j89223650607749_2_alg».proof.Defs
import proofs.«418450_j89223650607749_2_alg».proof.Proof.Gen.Kernel
import proofs.«418450_j89223650607749_2_alg».proof.Proof.Gen.Kernel.Skeleton
import proofs.«418450_j89223650607749_2_alg».proof.Proof.Gen.Kernel.Launch
import proofs.«418450_j89223650607749_2_alg».proof.Proof.Gen.Kernel.Points
import proofs.«418450_j89223650607749_2_alg».proof.Proof.Gen.Kernel.Frame
import proofs.«418450_j89223650607749_2_alg».proof.Proof.Gen.KernelIdeal
import proofs.«418450_j89223650607749_2_alg».proof.Proof.Gen.KernelIdeal.Skeleton
import proofs.«418450_j89223650607749_2_alg».proof.Proof.Gen.KernelIdeal.Launch
import proofs.«418450_j89223650607749_2_alg».proof.Proof.Gen.KernelIdeal.Points
import proofs.«418450_j89223650607749_2_alg».proof.Proof.Gen.KernelIdeal.Frame
import proofs.«418450_j89223650607749_2_alg».proof.Proof.Gen.ReferenceIdeal
import proofs.«418450_j89223650607749_2_alg».proof.Proof.Gen.Pre_finite_inputs
import proofs.«418450_j89223650607749_2_alg».proof.Proof.Gen.KernelIdeal.Value
import proofs.«418450_j89223650607749_2_alg».proof.Proof.Gen.ReferenceIdeal.Run
import proofs.«418450_j89223650607749_2_alg».proof.Proof.Gen.ReferenceIdeal.Read
import proofs.«418450_j89223650607749_2_alg».proof.Proof.PreDecode
import proofs.«418450_j89223650607749_2_alg».proof.Proof.KerValue
import proofs.«418450_j89223650607749_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The precondition on the kernel's memory gives, on every device, finite float arguments, a 0/1 mask and a kept column
    in every row. -/
theorem argsOk (m : (ℓ : Loc Cert.KernelIdeal.nD Cert.KernelIdeal.τ Cert.KernelIdeal.sig) → Buf (Elt Ideal) ℓ)
    (hpre : Cert.Pre_KernelIdeal m) (c : Dev Cert.KernelIdeal.nD) : AdjAtten.KerValue.ArgsOk m c :=
  AdjAtten.Pre.decode _ _ _ _ _ _ _ _ (hpre c)

/-- From memories that agree on the arguments, the kernel's result array and the reference's both end at the
    specification's result of those arguments. -/
theorem algebraic : Cert.algebraic_KernelIdeal_ReferenceIdeal := by
  intro m ρ m' ρ' hpre hagree
  have hok : ∀ c, AdjAtten.KerValue.ArgsOk m c := argsOk m hpre
  refine ⟨fun c => AdjAtten.KerValue.spec m c, AdjAtten.KerValue.run m ρ hok, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h4, h5, h6, h7, -, hrow⟩ := hok c
  obtain ⟨a0, a1, a2, a3, a4, a5, a6, a7⟩ := hagree c
  rw [Cert.ReferenceIdeal.Read.val_main_v31_eq, a0, a1, a2, a3, a4, a5, a6, a7]
  exact AdjAtten.Ref.ref_eq _ _ _ _ _ _ _ _ h0 h1 h2 h4 h5 h6 h7 hrow

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
